-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg1 main_v59
  let main_c_23 : IVec S_ 1 := constantI S_ 1 1#1
  let main_v61 : IVec S_ 1 := (fun x v => Host.reduce IntOp.andi x v reducesTo_S2x800000_S_d0_1 h_S_) main_v60 main_c_23
  let main_v62 : IVec S_ 1 := andi main_v58 main_v61
  let main_c_24 : IVec S_ 32 := constantI S_ 32 50000#32
  let main_v63 : IVec S2x800000 32 := broadcastInDim S2x800000 ![] bcast_S_S2x800000 main_c_24
  let main_v64 : IVec S2x800000 1 := cmpi .slt main_arg1 main_v63
  let main_c_25 : IVec S_ 1 := constantI S_ 1 1#1
  let main_v65 : IVec S_ 1 := (fun x v => Host.reduce IntOp.andi x v reducesTo_S2x800000_S_d0_1 h_S_) main_v64 main_c_25
  let main_v66 : IVec S_ 1 := andi main_v62 main_v65
  main_v66

def fn_part2 {F : FTy → Type} [FloatOps F] (main_arg1 : IVec S2x800000 32) (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_v48 main_v49 main_v50

def fn_part1 {F : FTy → Type} [FloatOps F] (main_arg1 : IVec S2x800000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x800000 32) (main_arg2 : FVec F S800000x64 .f32) (main_arg3 : FVec F S320x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S5000x128 : Shape := ⟨2, ![5000, 128]⟩
abbrev S5000x64 : Shape := ⟨2, ![5000, 64]⟩
abbrev S64x128 : Shape := ⟨2, ![64, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 75
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x128, .f32⟩
  | .hbm, ⟨36, _⟩ => ⟨S800000x128, .i1⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S1, .i32⟩
  | .hbm, ⟨49, _⟩ => ⟨S_, .i32⟩
  | .hbm, ⟨50, _⟩ => ⟨S800000x1, .i32⟩
  | .hbm, ⟨51, _⟩ => ⟨S800000x1, .i1⟩
  | .hbm, ⟨52, _⟩ => ⟨S1x1, .i32⟩
  | .hbm, ⟨53, _⟩ => ⟨S800000x1, .i32⟩
  | .hbm, ⟨54, _⟩ => ⟨S800000x1, .i1⟩
  | .hbm, ⟨55, _⟩ => ⟨S800000x1, .i1⟩
  | .hbm, ⟨56, _⟩ => ⟨S_, .i1⟩
  | .hbm, ⟨57, _⟩ => ⟨S800000, .i1⟩
  | .hbm, ⟨58, _⟩ => ⟨S800000x128, .f32⟩
  | .hbm, ⟨59, _⟩ => ⟨S800000x128, .i1⟩
  | .hbm, ⟨60, _⟩ => ⟨S_, .f32⟩
  | .hbm, ⟨61, _⟩ => ⟨S800000x128, .f32⟩
  | .hbm, ⟨62, _⟩ => ⟨S800000x128, .f32⟩
  | .hbm, ⟨63, _⟩ => ⟨S1x128, .f32⟩
  | .hbm, ⟨64, _⟩ => ⟨S1x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x64, .f32⟩
  | .local _ .vmem, ⟨5, _⟩ => ⟨S5000x64, .f32⟩
  | .local _ .vmem, ⟨6, _⟩ => ⟨S320x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S320x128_S128x128_0_0 : ∀ a, (![0, 0] : Fin 2 → Nat) a + S128x128.size a ≤ S320x128.size a
  h_S128x128 : 0 < S128x128.numel
  inb_S320x128_S128x128_128_0 : ∀ a, (![128, 0] : Fin 2 → Nat) a + S128x128.size a ≤ S320x128.size a
  inb_S320x128_S64x128_256_0 : ∀ a, (![256, 0] : Fin 2 → Nat) a + S64x128.size a ≤ S320x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S256x128_S128x128_0_0 : ∀ a, (![0, 0] : Fin 2 → Nat) a + S128x128.size a ≤ S256x128.size a
  inb_S256x128_S128x128_128_0 : ∀ a, (![128, 0] : Fin 2 → Nat) a + S128x128.size a ≤ S256x128.size a
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S800000x128.size a
  hwx0_0 : ∀ i : grid0.Coords, EltTy.bits .f32 = 32 ∨ (Rect.block (s := S800000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S800000x128.size a
  hwx0_1 : ∀ i : grid0.Coords, EltTy.bits .f32 = 32 ∨ (Rect.block (s := S800000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S800000x64.size a
  hwx0_2 : ∀ i : grid0.Coords, EltTy.bits .f32 = 32 ∨ (Rect.block (s := S800000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x128.size a ≤ S320x128.size a
  hwx0_3 : ∀ i : grid0.Coords, EltTy.bits .f32 = 32 ∨ (Rect.block (s := S320x128) S320x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S800000x128.size a
  hwx0_7 : ∀ i : grid0.Coords, EltTy.bits .f32 = 32 ∨ (Rect.block (s := S800000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x320 : Shape := ⟨2, ![800000, 320]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x320, .f32⟩
  | .hbm, ⟨36, _⟩ => ⟨S800000x128, .f32⟩
  | .hbm, ⟨37, _⟩ => ⟨S1x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S1x128, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x256, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x320_S320x128_S800000x128_1_0_0_1_n_n_wf : DotDims.WF S800000x320 S320x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x128_S800000x128_1_0_0_1_n_n : DotDims S800000x320 S320x128 S800000x128 where
  lhsContracting := [1]
  rhsContracting := [0]
  lhsNonContracting := [0]
  rhsNonContracting := [1]
  lhsBatch := []
  rhsBatch := []
  wf := dot_S800000x320_S320x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Words.lean ====
/-
  Words and one-bit masks: a 32-bit word that is at least 0 and below 50000 (read signed) is not negative and at most
  49999; and a reduction by "and" of an array of ones, from 1, is 1.
-/
import Idealize.ShloMosaic.Lib.ReduceAll
import Idealize.ShloMosaic.Lib.ValueIdx
import Idealize.ShloMosaic.PureOps.Ideal.Laws

namespace Cert.Words

open Idealize.ShloMosaic

theorem and1 : ∀ a b : BitVec 1, IntOp.andi a b = 1#1 ↔ a = 1#1 ∧ b = 1#1 := by decide

theorem ofBool_eq_one (b : Bool) : BitVec.ofBool b = 1#1 ↔ b = true := by cases b <;> decide
theorem ofBool_eq_zero (b : Bool) : BitVec.ofBool b = 0#1 ↔ b = false := by cases b <;> decide

/-- A word that is at least 0 and below 50000, read signed, is not negative and is at most 49999. -/
theorem word_facts (w : BitVec 32) (h0 : IntOp.cmpi .sge w 0#32 = 1#1) (h1 : IntOp.cmpi .slt w 50000#32 = 1#1) :
    IntOp.cmpi .slt w 0#32 = 0#1 ∧ IntOp.cmpi .sle w 49999#32 = 1#1 := by
  unfold IntOp.cmpi at *
  rw [ofBool_eq_one] at h0 h1
  rw [ofBool_eq_zero, ofBool_eq_one]
  simp only [BitVec.slt, BitVec.sle, decide_eq_true_eq, decide_eq_false_iff_not] at *
  have h32 := w.isLt
  unfold BitVec.toInt at *
  split at h1 <;> simp at h0 h1 ⊢ <;> omega

/-- A fold of the one-bit "and" over a list whose every element is 1, from 1, is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_ones f l fun n hn => h n (List.mem_cons_of_mem _ hn)

/-- A reduce by "and" from the constant 1 of an array of ones is 1 at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

end Cert.Words
-- ==== Proof.PreIdx.lean ====
/-
  The precondition read back at the edge indices. It is a conjunction of "all" reductions; its last two conjuncts say
  that every entry of the [2, 800000] index array is at least 0 and below 50000 (compared signed).
-/
import proofs.«401593_j292057776274_2_alg».proof.Defs
import proofs.«401593_j292057776274_2_alg».proof.Proof.Gen.KernelIdeal.Frame
import proofs.«401593_j292057776274_2_alg».proof.Proof.Gen.Pre_finite_inputs
import proofs.«401593_j292057776274_2_alg».proof.Proof.Words
import Idealize.ShloMosaic.Lib.ReduceAll
import Idealize.ShloMosaic.Lib.StableHlo.Run
import Idealize.ShloMosaic.Lib.ValueIdx

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem
open Idealize.ShloMosaic.StableHlo

/-! ## The precondition read back: every edge index lies in [0, 50000) -/

instance : Subsingleton Cert.Pre_finite_inputs.S_.Idx := ⟨fun a b => funext fun d => d.elim0⟩

theorem idx_in_range
    (a0 : FVec Ideal Cert.Pre_finite_inputs.S50000x128 .f32) (a1 : IVec Cert.Pre_finite_inputs.S2x800000 32)
    (a2 : FVec Ideal Cert.Pre_finite_inputs.S800000x64 .f32) (a3 : FVec Ideal Cert.Pre_finite_inputs.S320x128 .f32)
    (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S256x128 .f32)
    (a8 : FVec Ideal Cert.Pre_finite_inputs.S128 .f32) (a9 : FVec Ideal Cert.Pre_finite_inputs.S128x128 .f32)
    (a10 a11 a12 : FVec Ideal Cert.Pre_finite_inputs.S128 .f32)
    (h : Cert.Pre_finite_inputs.fn (F := Ideal) a0 a1 a2 a3 a4 a5 a6 a7 a8 a9 a10 a11 a12 = fun _ => 1#1)
    (i : Cert.Pre_finite_inputs.S2x800000.Idx) :
    IntOp.cmpi .sge (a1 i) 0#32 = 1#1 ∧ IntOp.cmpi .slt (a1 i) 50000#32 = 1#1 := by
  have e := congrFun h ix0
  unfold Cert.Pre_finite_inputs.fn Cert.Pre_finite_inputs.fn_part1 Cert.Pre_finite_inputs.fn_part2 Cert.Pre_finite_inputs.fn_part3 at e
  simp only [andi] at e
  rw [Words.and1, Words.and1] at e
  obtain ⟨⟨-, e0⟩, e1⟩ := e
  exact ⟨Host.reduce_andi_all _ _ _ _ _ e0 i, Host.reduce_andi_all _ _ _ _ _ e1 i⟩

end Cert.KernelIdeal.HostVal

end
-- ==== Proof.TakeFill.lean ====
/-
  A row gather that fills out-of-range rows. The kernel program gathers rows of the node features at an index vector by
  moving a negative index up by the number of rows, gathering (the gather clamps), and then selecting, row by row,
  between the gathered row and a fill: the row is kept where the moved index lies in [0, 49999]. When every index lies in
  [0, 50000) no index is moved, every row is kept, and the filled gather is the plain gather.
-/
import proofs.«401593_j292057776274_2_alg».proof.Proof.Gen.KernelIdeal.Frame
import proofs.«401593_j292057776274_2_alg».proof.Proof.Words
import Idealize.ShloMosaic.Lib.StableHlo.Run
import Idealize.ShloMosaic.Lib.ValueIdx

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem
open Idealize.ShloMosaic.StableHlo

/-! ## A row gather with a fill for out-of-range rows, at indices that are in range -/

theorem sel_left {α : Type} (c : BitVec 1) (a b : α) (h : c = 1#1) : Scalar.select c a b = a := by
  subst h; exact select_one a b

theorem sel_right {α : Type} (c : BitVec 1) (a b : α) (h : c = 0#1) : Scalar.select c a b = b := by
  subst h; exact select_zero a b

/-- The index as the gather reads it: a negative index moved up by the number of rows, then set as a column. -/
def wrapCol (v : IVec S800000 32) (b1 : S_.BroadcastsInDim S800000 ![]) (b2 : S800000.BroadcastsInDim S800000x1 ![0]) :
    IVec S800000x1 32 :=
  broadcastInDim S800000x1 ![0] b2 (select (cmpi .slt v (broadcastInDim S800000 ![] b1 (constantI S_ 32 0#32)))
    (addi v (broadcastInDim S800000 ![] b1 (constantI S_ 32 50000#32))) v)

/-- With every index in [0, 50000), each entry of the column is an index itself, in [0, 49999]. -/
theorem wrapCol_facts (v : IVec S800000 32)
    (hv : ∀ k, IntOp.cmpi .sge (v k) 0#32 = 1#1 ∧ IntOp.cmpi .slt (v k) 50000#32 = 1#1)
    (b1 : S_.BroadcastsInDim S800000 ![]) (b2 : S800000.BroadcastsInDim S800000x1 ![0]) (j : S800000x1.Idx) :
    IntOp.cmpi .sge (wrapCol v b1 b2 j) 0#32 = 1#1 ∧ IntOp.cmpi .sle (wrapCol v b1 b2 j) 49999#32 = 1#1 := by
  obtain ⟨k, hk⟩ : ∃ k, wrapCol v b1 b2 j
      = Scalar.select (IntOp.cmpi .slt (v k) 0#32) (IntOp.addi (v k) 50000#32) (v k) := ⟨_, rfl⟩
  obtain ⟨h0, h1⟩ := hv k
  obtain ⟨f0, f1⟩ := Words.word_facts (v k) h0 h1
  rw [hk, sel_right _ _ _ f0]
  exact ⟨h0, f1⟩

/-- The filled gather is the plain gather when every index is in range: the mask the fill is selected by is all ones. -/
theorem take_in_range (x : FVec Ideal S50000x128 .f32) (v : IVec S800000 32)
    (hv : ∀ k, IntOp.cmpi .sge (v k) 0#32 = 1#1 ∧ IntOp.cmpi .slt (v k) 50000#32 = 1#1)
    (b1 : S_.BroadcastsInDim S800000 ![]) (b2 : S800000.BroadcastsInDim S800000x1 ![0]) (b3 : S_.BroadcastsInDim S800000x1 ![])
    (b4 : S1.BroadcastsInDim S1x1 ![1]) (b5 : S1x1.BroadcastsInDim S800000x1 ![0, 1])
    (b6 : S800000.BroadcastsInDim S800000x128 ![0]) (b7 : S_.BroadcastsInDim S800000x128 ![])
    (hr : S800000x1.ReducesTo [1] S800000) (hS : 0 < S_.numel) (d : GatherDims S50000x128 S800000x1 S800000x128) :
    select (broadcastInDim S800000x128 ![0] b6
        (Host.reduce IntOp.andi (andi (cmpi .sge (wrapCol v b1 b2) (broadcastInDim S800000x1 ![] b3 (constantI S_ 32 0#32)))
          (cmpi .sle (wrapCol v b1 b2) (broadcastInDim S800000x1 ![0, 1] b5 (broadcastInDim S1x1 ![1] b4 (constantI S1 32 49999#32)))))
          (constantI S_ 1 1#1) hr hS))
      (Host.gather d x (wrapCol v b1 b2)) (broadcastInDim S800000x128 ![] b7 (constant (F := Ideal) S_ .f32 0x7FC00000#32))
    = Host.gather d x (wrapCol v b1 b2) := by
  funext i
  refine sel_left _ _ _ ?_
  show Host.reduce IntOp.andi _ _ hr hS _ = 1#1
  refine Words.reduce_andi_ones _ _ hr hS (fun _ => rfl) (fun j => ?_) _
  obtain ⟨g0, g1⟩ := wrapCol_facts v hv b1 b2 j
  show IntOp.andi (IntOp.cmpi .sge (wrapCol v b1 b2 j) 0#32) (IntOp.cmpi .sle (wrapCol v b1 b2 j) 49999#32) = 1#1
  rw [g0, g1]; decide

end Cert.KernelIdeal.HostVal

end
-- ==== Proof.HostRead.lean ====
/-
  What each region of the kernel's program finds in the buffers it reads, as functions of the launch arrays: the
  host operations before and between the regions read back one buffer at a time. With every edge index in
  [0, 50000) the two row gathers with a fill are plain gathers; the biases are the launch vectors as one-row
  matrices; the aggregated messages are the scatter-add of the first region's result.
-/
import proofs.«401593_j292057776274_2_alg».proof.Proof.Gen.KernelIdeal.Frame
import proofs.«401593_j292057776274_2_alg».proof.Proof.TakeFill
import Idealize.ShloMosaic.Lib.StableHlo.Run
import Idealize.ShloMosaic.Lib.Pipeline.Value
import Idealize.ShloMosaic.Lib.ValueIdx

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## What the first region finds (the contents after the host operations before it) -/

/-- Row 0 (the sources) and row 1 (the destinations) of the edge index array, each as a vector. -/
def srcIdx (e : IVec S2x800000 32) : IVec S800000 32 :=
  shapeCast S800000 (extractStridedSlice S1x800000 ![0, 0] e slices_S2x800000_S1x800000_0_0) shapeCasts_S1x800000_S800000
def dstIdx (e : IVec S2x800000 32) : IVec S800000 32 :=
  shapeCast S800000 (extractStridedSlice S1x800000 ![1, 0] e slices_S2x800000_S1x800000_1_0) shapeCasts_S1x800000_S800000

/-- Every entry of either vector is an entry of the array. -/
theorem srcIdx_mem (e : IVec S2x800000 32) (k : S800000.Idx) : ∃ i, srcIdx e k = e i := ⟨_, rfl⟩
theorem dstIdx_mem (e : IVec S2x800000 32) (k : S800000.Idx) : ∃ i, dstIdx e k = e i := ⟨_, rfl⟩

/-- The rows of the node features at the sources / destinations, as the gather reads them. -/
def gatherAt (x : FVec Ideal S50000x128 .f32) (v : IVec S800000 32) : FVec Ideal S800000x128 .f32 :=
  Host.gather gather_S50000x128_S800000x1_S800000x128_1_0_n_n_0_1_1128 x (wrapCol v bcast_S_S800000 bcast_S800000_S800000x1_0)

theorem W4_arg0 (c : Dev nD) : W4 m ρ c (Proc.devRef .tc main_arg0) = m ((c : Thread nD τ).loc main_arg0) := by
  dsimp only [W4, W3, W2, W1, W0]
  after_results

theorem W4_arg2 (c : Dev nD) : W4 m ρ c (Proc.devRef .tc main_arg2) = m ((c : Thread nD τ).loc main_arg2) := by
  dsimp only [W4, W3, W2, W1, W0]
  after_results

theorem W4_arg3 (c : Dev nD) : W4 m ρ c (Proc.devRef .tc main_arg3) = m ((c : Thread nD τ).loc main_arg3) := by
  dsimp only [W4, W3, W2, W1, W0]
  after_results

theorem W4_arg5 (c : Dev nD) : W4 m ρ c (Proc.devRef .tc main_arg5) = m ((c : Thread nD τ).loc main_arg5) := by
  dsimp only [W4, W3, W2, W1, W0]
  after_results

theorem W4_arg7 (c : Dev nD) : W4 m ρ c (Proc.devRef .tc main_arg7) = m ((c : Thread nD τ).loc main_arg7) := by
  dsimp only [W4, W3, W2, W1, W0]
  after_results

theorem W4_arg8 (c : Dev nD) : W4 m ρ c (Proc.devRef .tc main_arg8) = m ((c : Thread nD τ).loc main_arg8) := by
  dsimp only [W4, W3, W2, W1, W0]
  after_results

theorem W4_arg9 (c : Dev nD) : W4 m ρ c (Proc.devRef .tc main_arg9) = m ((c : Thread nD τ).loc main_arg9) := by
  dsimp only [W4, W3, W2, W1, W0]
  after_results

theorem W4_arg10 (c : Dev nD) : W4 m ρ c (Proc.devRef .tc main_arg10) = m ((c : Thread nD τ).loc main_arg10) := by
  dsimp only [W4, W3, W2, W1, W0]
  after_results

theorem W4_arg11 (c : Dev nD) : W4 m ρ c (Proc.devRef .tc main_arg11) = m ((c : Thread nD τ).loc main_arg11) := by
  dsimp only [W4, W3, W2, W1, W0]
  after_results

theorem W4_arg12 (c : Dev nD) : W4 m ρ c (Proc.devRef .tc main_arg12) = m ((c : Thread nD τ).loc main_arg12) := by
  dsimp only [W4, W3, W2, W1, W0]
  after_results

/-- The destination indices are untouched by the host operations before the first region. -/
theorem W4_v3 (c : Dev nD) : W4 m ρ c (Proc.devRef .tc main_v3) = dstIdx (m ((c : Thread nD τ).loc main_arg1)) := by
  dsimp only [W4, W3, W2, W1, W0]
  after_results
  rfl

/-- The two biases of the message perceptron as the first region finds them: the launch vectors recast as one row. -/
theorem W4_v6 (c : Dev nD) :
    W4 m ρ c (Proc.devRef .tc main_v6) = shapeCast S1x128 (m ((c : Thread nD τ).loc main_arg4)) shapeCasts_S128_S1x128 := by
  dsimp only [W4, W3, W2, W1, W0]
  after_results
  rfl
theorem W4_v7 (c : Dev nD) :
    W4 m ρ c (Proc.devRef .tc main_v7) = shapeCast S1x128 (m ((c : Thread nD τ).loc main_arg6)) shapeCasts_S128_S1x128 := by
  dsimp only [W4, W3, W2, W1, W0]
  after_results
  rfl

theorem ofBuf_toBuf {T : BufTy} (x : TRef sig T) (v : T.Contents (Elt Ideal)) : x.ofBuf (x.toBuf v) = v := by
  obtain ⟨r, rfl, h2, h3⟩ := x; rfl

/-- The two operands of the first gather, read at their tensor types. -/
abbrev opX (X : Valuation τ sig (Elt Ideal)) : FVec Ideal S50000x128 .f32 :=
  (TRef.of main_arg0 : TRef sig ⟨S50000x128, .f32⟩).ofBuf (X (Proc.devRef .tc main_arg0))
abbrev opV1 (X : Valuation τ sig (Elt Ideal)) : IVec S800000 32 :=
  (TRef.of main_v1 : TRef sig ⟨S800000, .i32⟩).ofBuf (X (Proc.devRef .tc main_v1))

set_option maxHeartbeats 2000000 in
/-- The filled gather of the source rows over ANY contents of its operands' buffers. -/
theorem fill_src (X : Valuation τ sig (Elt Ideal))
    (hv : ∀ k, IntOp.cmpi .sge (opV1 X k) 0#32 = 1#1 ∧ IntOp.cmpi .slt (opV1 X k) 50000#32 = 1#1) :
    after hostOps0_1 X (Proc.devRef .tc main_v4)
      = (TRef.of main_v4 : TRef sig ⟨S800000x128, .f32⟩).toBuf (gatherAt (opX X) (opV1 X)) := by
  after_results_simp
  simp only [ofBuf_toBuf]
  have key := take_in_range (opX X) (opV1 X) hv bcast_S_S800000 bcast_S800000_S800000x1_0 bcast_S_S800000x1 bcast_S1_S1x1_1 bcast_S1x1_S800000x1_0_1 bcast_S800000_S800000x128_0 bcast_S_S800000x128 reducesTo_S800000x1_S800000_d1 h_S_ gather_S50000x128_S800000x1_S800000x128_1_0_n_n_0_1_1128
  unfold wrapCol at key
  unfold gatherAt wrapCol
  rw [key]

/-- The second gather's operands, read at their tensor types. -/
abbrev opX' (X : Valuation τ sig (Elt Ideal)) : FVec Ideal S50000x128 .f32 :=
  (TRef.of main_arg0 : TRef sig ⟨S50000x128, .f32⟩).ofBuf (X (Proc.devRef .tc main_arg0))
abbrev opV3 (X : Valuation τ sig (Elt Ideal)) : IVec S800000 32 :=
  (TRef.of main_v3 : TRef sig ⟨S800000, .i32⟩).ofBuf (X (Proc.devRef .tc main_v3))

set_option maxHeartbeats 2000000 in
/-- The filled gather of the destination rows over ANY contents of its operands' buffers. -/
theorem fill_dst (X : Valuation τ sig (Elt Ideal))
    (hv : ∀ k, IntOp.cmpi .sge (opV3 X k) 0#32 = 1#1 ∧ IntOp.cmpi .slt (opV3 X k) 50000#32 = 1#1) :
    after hostOps0_2 X (Proc.devRef .tc main_v5)
      = (TRef.of main_v5 : TRef sig ⟨S800000x128, .f32⟩).toBuf (gatherAt (opX' X) (opV3 X)) := by
  after_results_simp
  simp only [ofBuf_toBuf]
  have key := take_in_range (opX' X) (opV3 X) hv bcast_S_S800000 bcast_S800000_S800000x1_0 bcast_S_S800000x1 bcast_S1_S1x1_1 bcast_S1x1_S800000x1_0_1 bcast_S800000_S800000x128_0 bcast_S_S800000x128 reducesTo_S800000x1_S800000_d1 h_S_ gather_S50000x128_S800000x1_S800000x128_1_0_n_n_0_1_1128
  unfold wrapCol at key
  unfold gatherAt wrapCol
  rw [key]

/-- A literal reference's cast is the identity. -/
theorem ofBuf_arg0 (v : (main_arg0 : Ref sig .tc).ty.Contents (Elt Ideal)) :
    (TRef.of main_arg0 : TRef sig ⟨S50000x128, .f32⟩).ofBuf (Val := Elt Ideal) v = v := rfl
theorem ofBuf_v1 (v : (main_v1 : Ref sig .tc).ty.Contents (Elt Ideal)) :
    (TRef.of main_v1 : TRef sig ⟨S800000, .i32⟩).ofBuf (Val := Elt Ideal) v = v := rfl
theorem toBuf_v4 (v : (⟨S800000x128, .f32⟩ : BufTy).Contents (Elt Ideal)) :
    (TRef.of main_v4 : TRef sig ⟨S800000x128, .f32⟩).toBuf (Val := Elt Ideal) v = v := rfl

theorem W1_v1 (c : Dev nD) : W1 m ρ c (Proc.devRef .tc main_v1) = srcIdx (m ((c : Thread nD τ).loc main_arg1)) := by
  dsimp only [W1, W0]
  after_results
  rfl
theorem W1_arg0 (c : Dev nD) : W1 m ρ c (Proc.devRef .tc main_arg0) = m ((c : Thread nD τ).loc main_arg0) := by
  dsimp only [W1, W0]
  after_results

/-- With the edge indices in range, the gathered source rows are the plain gather: the fill is never selected. -/
theorem W4_v4 (c : Dev nD)
    (hidx : ∀ i, IntOp.cmpi .sge (m ((c : Thread nD τ).loc main_arg1) i) 0#32 = 1#1
      ∧ IntOp.cmpi .slt (m ((c : Thread nD τ).loc main_arg1) i) 50000#32 = 1#1) :
    W4 m ρ c (Proc.devRef .tc main_v4)
      = gatherAt (m ((c : Thread nD τ).loc main_arg0)) (srcIdx (m ((c : Thread nD τ).loc main_arg1))) := by
  have e1 : opV1 (W1 m ρ c) = srcIdx (m ((c : Thread nD τ).loc main_arg1)) := by
    unfold opV1; rw [W1_v1]; exact ofBuf_v1 _
  have e0 : opX (W1 m ρ c) = m ((c : Thread nD τ).loc main_arg0) := by
    unfold opX; rw [W1_arg0]; exact ofBuf_arg0 _
  have hv : ∀ k, IntOp.cmpi .sge (opV1 (W1 m ρ c) k) 0#32 = 1#1 ∧ IntOp.cmpi .slt (opV1 (W1 m ρ c) k) 50000#32 = 1#1 := fun k => by
    rw [e1]
    obtain ⟨i, hi⟩ := srcIdx_mem (m ((c : Thread nD τ).loc main_arg1)) k
    rw [hi]; exact hidx i
  calc W4 m ρ c (Proc.devRef .tc main_v4)
    _ = W3 m ρ c (Proc.devRef .tc main_v4) := StableHlo.after_of_forall_not_mem _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v4) := StableHlo.after_of_forall_not_mem _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = _ := (fill_src (W1 m ρ c) hv).trans (by rw [e0, e1]; exact toBuf_v4 _)

theorem ofBuf_v3 (v : (main_v3 : Ref sig .tc).ty.Contents (Elt Ideal)) :
    (TRef.of main_v3 : TRef sig ⟨S800000, .i32⟩).ofBuf (Val := Elt Ideal) v = v := rfl
theorem toBuf_v5 (v : (⟨S800000x128, .f32⟩ : BufTy).Contents (Elt Ideal)) :
    (TRef.of main_v5 : TRef sig ⟨S800000x128, .f32⟩).toBuf (Val := Elt Ideal) v = v := rfl

theorem W1_v3 (c : Dev nD) : W1 m ρ c (Proc.devRef .tc main_v3) = dstIdx (m ((c : Thread nD τ).loc main_arg1)) := by
  dsimp only [W1, W0]
  after_results
  rfl
theorem W2_v3 (c : Dev nD) : W2 m ρ c (Proc.devRef .tc main_v3) = dstIdx (m ((c : Thread nD τ).loc main_arg1)) :=
  (StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W2 m ρ c (Proc.devRef .tc main_v3) = W1 m ρ c (Proc.devRef .tc main_v3)).trans (W1_v3 m ρ c)
theorem W2_arg0 (c : Dev nD) : W2 m ρ c (Proc.devRef .tc main_arg0) = m ((c : Thread nD τ).loc main_arg0) :=
  (StableHlo.after_of_forall_not_mem _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W2 m ρ c (Proc.devRef .tc main_arg0) = W1 m ρ c (Proc.devRef .tc main_arg0)).trans (W1_arg0 m ρ c)

/-- The same for the gathered destination rows. -/
theorem W4_v5 (c : Dev nD)
    (hidx : ∀ i, IntOp.cmpi .sge (m ((c : Thread nD τ).loc main_arg1) i) 0#32 = 1#1
      ∧ IntOp.cmpi .slt (m ((c : Thread nD τ).loc main_arg1) i) 50000#32 = 1#1) :
    W4 m ρ c (Proc.devRef .tc main_v5)
      = gatherAt (m ((c : Thread nD τ).loc main_arg0)) (dstIdx (m ((c : Thread nD τ).loc main_arg1))) := by
  have e1 : opV3 (W2 m ρ c) = dstIdx (m ((c : Thread nD τ).loc main_arg1)) := by
    unfold opV3; rw [W2_v3]; exact ofBuf_v3 _
  have e0 : opX' (W2 m ρ c) = m ((c : Thread nD τ).loc main_arg0) := by
    unfold opX'; rw [W2_arg0]; exact ofBuf_arg0 _
  have hv : ∀ k, IntOp.cmpi .sge (opV3 (W2 m ρ c) k) 0#32 = 1#1 ∧ IntOp.cmpi .slt (opV3 (W2 m ρ c) k) 50000#32 = 1#1 := fun k => by
    rw [e1]
    obtain ⟨i, hi⟩ := dstIdx_mem (m ((c : Thread nD τ).loc main_arg1)) k
    rw [hi]; exact hidx i
  calc W4 m ρ c (Proc.devRef .tc main_v5)
    _ = W3 m ρ c (Proc.devRef .tc main_v5) := StableHlo.after_of_forall_not_mem _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = _ := (fill_dst (W2 m ρ c) hv).trans (by rw [e0, e1]; exact toBuf_v5 _)

/-! ## Between the regions, and what the second region finds -/

/-- A one-row matrix cast from a vector reads, at (0, k), the vector at k. -/
theorem shapeCast_row_apply {α : Type} {b : ℕ} (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- The message array after the first region is what its pipeline leaves. -/
theorem W5_v8 (c : Dev nD) : W5 m ρ c (Proc.devRef .tc main_v8) = (dat0 (V4 m ρ) c).arrAt 7 cfg0.N := W5_arr m ρ c 7

theorem W5_v3 (c : Dev nD) : W5 m ρ c (Proc.devRef .tc main_v3) = W4 m ρ c (Proc.devRef .tc main_v3) := W5_of_ne m ρ c main_v3 (by decide)
theorem W5_arg0 (c : Dev nD) : W5 m ρ c (Proc.devRef .tc main_arg0) = W4 m ρ c (Proc.devRef .tc main_arg0) := W5_of_ne m ρ c main_arg0 (by decide)
theorem W5_arg7 (c : Dev nD) : W5 m ρ c (Proc.devRef .tc main_arg7) = W4 m ρ c (Proc.devRef .tc main_arg7) := W5_of_ne m ρ c main_arg7 (by decide)
theorem W5_arg8 (c : Dev nD) : W5 m ρ c (Proc.devRef .tc main_arg8) = W4 m ρ c (Proc.devRef .tc main_arg8) := W5_of_ne m ρ c main_arg8 (by decide)
theorem W5_arg9 (c : Dev nD) : W5 m ρ c (Proc.devRef .tc main_arg9) = W4 m ρ c (Proc.devRef .tc main_arg9) := W5_of_ne m ρ c main_arg9 (by decide)
theorem W5_arg10 (c : Dev nD) : W5 m ρ c (Proc.devRef .tc main_arg10) = W4 m ρ c (Proc.devRef .tc main_arg10) := W5_of_ne m ρ c main_arg10 (by decide)
theorem W5_arg11 (c : Dev nD) : W5 m ρ c (Proc.devRef .tc main_arg11) = W4 m ρ c (Proc.devRef .tc main_arg11) := W5_of_ne m ρ c main_arg11 (by decide)
theorem W5_arg12 (c : Dev nD) : W5 m ρ c (Proc.devRef .tc main_arg12) = W4 m ρ c (Proc.devRef .tc main_arg12) := W5_of_ne m ρ c main_arg12 (by decide)

/-- The aggregated messages as the second region finds them: the messages scattered by destination and summed. -/
def aggOf (dst : IVec S800000 32) (msg : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) msg

theorem W6_v11 (c : Dev nD) :
    W6 m ρ c (Proc.devRef .tc main_v11)
      = aggOf (W5 m ρ c (Proc.devRef .tc main_v3)) (W5 m ρ c (Proc.devRef .tc main_v8)) := by
  dsimp only [W6]
  after_results
  rfl

theorem W6_v12 (c : Dev nD) :
    W6 m ρ c (Proc.devRef .tc main_v12) = shapeCast S1x128 (W5 m ρ c (Proc.devRef .tc main_arg8)) shapeCasts_S128_S1x128 := by
  dsimp only [W6]
  after_results
  rfl
theorem W6_v13 (c : Dev nD) :
    W6 m ρ c (Proc.devRef .tc main_v13) = shapeCast S1x128 (W5 m ρ c (Proc.devRef .tc main_arg10)) shapeCasts_S128_S1x128 := by
  dsimp only [W6]
  after_results
  rfl
theorem W6_v14 (c : Dev nD) :
    W6 m ρ c (Proc.devRef .tc main_v14) = shapeCast S1x128 (W5 m ρ c (Proc.devRef .tc main_arg11)) shapeCasts_S128_S1x128 := by
  dsimp only [W6]
  after_results
  rfl
theorem W6_v15 (c : Dev nD) :
    W6 m ρ c (Proc.devRef .tc main_v15) = shapeCast S1x128 (W5 m ρ c (Proc.devRef .tc main_arg12)) shapeCasts_S128_S1x128 := by
  dsimp only [W6]
  after_results
  rfl

theorem W6_arg0 (c : Dev nD) : W6 m ρ c (Proc.devRef .tc main_arg0) = W5 m ρ c (Proc.devRef .tc main_arg0) := by
  dsimp only [W6]
  after_results
theorem W6_arg7 (c : Dev nD) : W6 m ρ c (Proc.devRef .tc main_arg7) = W5 m ρ c (Proc.devRef .tc main_arg7) := by
  dsimp only [W6]
  after_results
theorem W6_arg9 (c : Dev nD) : W6 m ρ c (Proc.devRef .tc main_arg9) = W5 m ρ c (Proc.devRef .tc main_arg9) := by
  dsimp only [W6]
  after_results

/-- The result array after the second region is what its pipeline leaves. -/
theorem W7_v16 (c : Dev nD) : W7 m ρ c (Proc.devRef .tc main_v16) = (dat1 (V6 m ρ) c).arrAt 8 cfg1.N := W7_arr m ρ c 8

/-! ## The bias, scale and shift rows at an entry -/

theorem W4_v6_row (c : Dev nD) (k : Fin 128) :
    W4 m ρ c (Proc.devRef .tc main_v6) (ix2 (0 : Fin 1) k) = m ((c : Thread nD τ).loc main_arg4) (ix1 k) := by
  rw [W4_v6]; exact shapeCast_row_apply _ _ _ _
theorem W4_v7_row (c : Dev nD) (k : Fin 128) :
    W4 m ρ c (Proc.devRef .tc main_v7) (ix2 (0 : Fin 1) k) = m ((c : Thread nD τ).loc main_arg6) (ix1 k) := by
  rw [W4_v7]; exact shapeCast_row_apply _ _ _ _
theorem W6_v12_row (c : Dev nD) (k : Fin 128) :
    W6 m ρ c (Proc.devRef .tc main_v12) (ix2 (0 : Fin 1) k) = m ((c : Thread nD τ).loc main_arg8) (ix1 k) := by
  rw [W6_v12, W5_arg8, W4_arg8]; exact shapeCast_row_apply _ _ _ _
theorem W6_v13_row (c : Dev nD) (k : Fin 128) :
    W6 m ρ c (Proc.devRef .tc main_v13) (ix2 (0 : Fin 1) k) = m ((c : Thread nD τ).loc main_arg10) (ix1 k) := by
  rw [W6_v13, W5_arg10, W4_arg10]; exact shapeCast_row_apply _ _ _ _
theorem W6_v14_row (c : Dev nD) (k : Fin 128) :
    W6 m ρ c (Proc.devRef .tc main_v14) (ix2 (0 : Fin 1) k) = m ((c : Thread nD τ).loc main_arg11) (ix1 k) := by
  rw [W6_v14, W5_arg11, W4_arg11]; exact shapeCast_row_apply _ _ _ _
theorem W6_v15_row (c : Dev nD) (k : Fin 128) :
    W6 m ρ c (Proc.devRef .tc main_v15) (ix2 (0 : Fin 1) k) = m ((c : Thread nD τ).loc main_arg12) (ix1 k) := by
  rw [W6_v15, W5_arg12, W4_arg12]; exact shapeCast_row_apply _ _ _ _

end Cert.KernelIdeal.HostVal

end
-- ==== Proof.Spec.lean ====
/-
  The layer's mathematics, row by row, on the extended reals.

  An edge's message is a two-layer perceptron of three row vectors (the source node's features, the destination
  node's features, the edge's features) whose first layer is written with its input split in three: the weight
  matrix's rows 0..127 meet the first vector, 128..255 the second, 256..319 the third. A node's update is a
  two-layer perceptron of two row vectors (its features and its aggregated messages) added to its features and
  normalised over the row: mean, variance, reciprocal square root, scale and shift.

  Both programs compute these row functions; they differ in how the first layer's sum is grouped (one sum over 320
  or 256 inputs against three or two partial sums), which the splitting laws below settle in any commutative monoid.
-/
import Idealize.ShloMosaic.Lib.ValueIdx
import Idealize.ShloMosaic.PureOps.Ideal.Laws

noncomputable section

open scoped BigOperators

namespace Cert.Spec

open Idealize.ShloMosaic Idealize.ShloMosaic.ValueIdx

/-- A matrix of extended reals with `a` rows and `b` columns. -/
abbrev Mat (a b : ℕ) : Type := FVec Ideal (⟨2, ![a, b]⟩ : Shape) .f32

/-- Row `r` of a matrix. -/
def rowOf {a b : ℕ} (X : Mat a b) (r : Fin a) : Fin b → EReal := fun k => X (ix2 r k)

/-! ## Splitting a sum over the joined axis -/

/-- A sum over 320 = 128 + 128 + 64 positions is the sum of its three stretches. -/
theorem sum_fin320 {M : Type} [AddCommMonoid M] (f : Fin 320 → M) :
    ∑ k, f k = ((∑ i : Fin 128, f ⟨i.val, by omega⟩) + ∑ i : Fin 128, f ⟨128 + i.val, by omega⟩)
      + ∑ i : Fin 64, f ⟨256 + i.val, by omega⟩ := by
  have h1 := Fin.sum_univ_add (a := 256) (b := 64) f
  have h2 := Fin.sum_univ_add (a := 128) (b := 128) (fun i : Fin 256 => f (Fin.castAdd 64 i))
  rw [h1, h2]
  rfl

/-- A sum over 256 = 128 + 128 positions is the sum of its two halves. -/
theorem sum_fin256 {M : Type} [AddCommMonoid M] (f : Fin 256 → M) :
    ∑ k, f k = (∑ i : Fin 128, f ⟨i.val, by omega⟩) + ∑ i : Fin 128, f ⟨128 + i.val, by omega⟩ := by
  have h1 := Fin.sum_univ_add (a := 128) (b := 128) f
  rw [h1]
  rfl

/-! ## The message perceptron -/

/-- Hidden unit `k` of the message perceptron before its rectifier: the three partial products and the bias. -/
def msgHid (a b : Fin 128 → EReal) (e : Fin 64 → EReal) (W1 : Mat 320 128) (b1 : Fin 128 → EReal) (k : Fin 128) : EReal :=
  (((∑ i : Fin 128, a i * W1 (ix2 (⟨i.val, by omega⟩ : Fin 320) k))
      + ∑ i : Fin 128, b i * W1 (ix2 (⟨128 + i.val, by omega⟩ : Fin 320) k))
    + ∑ i : Fin 64, e i * W1 (ix2 (⟨256 + i.val, by omega⟩ : Fin 320) k)) + b1 k

/-- Output `j` of the message perceptron. -/
def msgRow (a b : Fin 128 → EReal) (e : Fin 64 → EReal) (W1 : Mat 320 128) (b1 : Fin 128 → EReal)
    (W2 : Mat 128 128) (b2 : Fin 128 → EReal) (j : Fin 128) : EReal :=
  (∑ k : Fin 128, max (msgHid a b e W1 b1 k) 0 * W2 (ix2 k j)) + b2 j

/-- The messages of `n` edges: row `r` from row `r` of the three inputs. -/
def msgArr {n : ℕ} (A B : Mat n 128) (E : Mat n 64) (W1 : Mat 320 128) (b1 : Fin 128 → EReal)
    (W2 : Mat 128 128) (b2 : Fin 128 → EReal) : Mat n 128 :=
  fun y => msgRow (rowOf A ⟨(y 0).val, (y 0).isLt⟩) (rowOf B ⟨(y 0).val, (y 0).isLt⟩) (rowOf E ⟨(y 0).val, (y 0).isLt⟩)
    W1 b1 W2 b2 ⟨(y 1).val, (y 1).isLt⟩

theorem msgArr_apply {n : ℕ} (A B : Mat n 128) (E : Mat n 64) (W1 : Mat 320 128) (b1 : Fin 128 → EReal)
    (W2 : Mat 128 128) (b2 : Fin 128 → EReal) (r : Fin n) (j : Fin 128) :
    msgArr A B E W1 b1 W2 b2 (ix2 r j) = msgRow (rowOf A r) (rowOf B r) (rowOf E r) W1 b1 W2 b2 j := rfl

/-! ## The update perceptron and the row normalisation -/

/-- Hidden unit `k` of the update perceptron before its rectifier: the two partial products and the bias. -/
def updHid (x g : Fin 128 → EReal) (W1 : Mat 256 128) (b1 : Fin 128 → EReal) (k : Fin 128) : EReal :=
  ((∑ i : Fin 128, x i * W1 (ix2 (⟨i.val, by omega⟩ : Fin 256) k))
    + ∑ i : Fin 128, g i * W1 (ix2 (⟨128 + i.val, by omega⟩ : Fin 256) k)) + b1 k

/-- Entry `j` of a node's row before normalisation: its feature plus the update perceptron's output. -/
def updPre (x g : Fin 128 → EReal) (W1 : Mat 256 128) (b1 : Fin 128 → EReal) (W2 : Mat 128 128) (b2 : Fin 128 → EReal)
    (j : Fin 128) : EReal :=
  x j + ((∑ k : Fin 128, max (updHid x g W1 b1 k) 0 * W2 (ix2 k j)) + b2 j)

/-- The mean of a row of 128 entries, the divisor `c` being the value the programs' constant denotes. -/
def rowMean (v : Fin 128 → EReal) (c : EReal) : EReal := Ideal.div (∑ k : Fin 128, v k) c

/-- The mean of the squared deviations from the row's mean. -/
def rowVar (v : Fin 128 → EReal) (c : EReal) : EReal :=
  Ideal.div (∑ k : Fin 128, (v k - rowMean v c) * (v k - rowMean v c)) c

/-- Entry `j` of the normalised row: deviation times the reciprocal root of variance plus `eps`, scaled and shifted. -/
def lnRow (v γ β : Fin 128 → EReal) (c eps : EReal) (j : Fin 128) : EReal :=
  ((v j - rowMean v c) * Ideal.rsqrt (rowVar v c + eps)) * γ j + β j

/-- The divisor and the epsilon as the two programs spell them: the f32 words of 128 and of 1e-5. -/
def c128 : EReal := Ideal.ofBits .f32 0x43000000#32
def epsLN : EReal := Ideal.ofBits .f32 0x3727C5AC#32

/-- The layer's result for `n` nodes: row `r` from row `r` of the features and of the aggregated messages. -/
def updArr {n : ℕ} (X G : Mat n 128) (W1 : Mat 256 128) (b1 : Fin 128 → EReal) (W2 : Mat 128 128)
    (b2 γ β : Fin 128 → EReal) : Mat n 128 :=
  fun y => lnRow (updPre (rowOf X ⟨(y 0).val, (y 0).isLt⟩) (rowOf G ⟨(y 0).val, (y 0).isLt⟩) W1 b1 W2 b2) γ β c128 epsLN
    ⟨(y 1).val, (y 1).isLt⟩

theorem updArr_apply {n : ℕ} (X G : Mat n 128) (W1 : Mat 256 128) (b1 : Fin 128 → EReal) (W2 : Mat 128 128)
    (b2 γ β : Fin 128 → EReal) (r : Fin n) (j : Fin 128) :
    updArr X G W1 b1 W2 b2 γ β (ix2 r j) = lnRow (updPre (rowOf X r) (rowOf G r) W1 b1 W2 b2) γ β c128 epsLN j := rfl

end Cert.Spec

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.Region0.lean ====
/-
  The first kernel's value. Each grid point's body computes, for the 5000 edges of its block, the message perceptron of
  the block's rows (three block products into one hidden row, a rectifier, a fourth product, two bias rows); the blocks
  of the three edge arrays at a point are rows t·5000 … t·5000 + 4999 of their arrays and the weights' and biases' blocks
  are the whole arrays, so what a point writes back is its block of ONE function of the arrays, and the 160 blocks cover
  the result: after the region the message array is the message perceptron, row by row.
-/
import proofs.«401593_j292057776274_2_alg».proof.Proof.Gen.KernelIdeal.Frame
import proofs.«401593_j292057776274_2_alg».proof.Proof.Spec
import proofs.«401593_j292057776274_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val0

open Cert.KernelIdeal Cert.KernelIdeal.Gen Idealize.ShloMosaic Idealize.ShloMosaic.TcCoe Idealize.ShloMosaic.ValueIdx Idealize.SL.Sem
open Idealize.ShloMosaic.Pipeline (Dat)

/-! ## A block product into the zero accumulator, read at a row and a column

The product's contraction runs over one axis; its index set is carried to `Fin K` and the two operand indices at
`(p, q)` and `k` are `(p, k)` and `(k, q)`, coordinate by coordinate. -/

theorem lhs_a_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_a_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_a_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_a_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of a 5000×128 by 128×128 product: row `p` of the left factor against column `q` of the right. -/
theorem mm_a_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_a_0 _ _
    | ⟨1, _⟩ => exact (lhs_a_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_a_0 _ _).trans hk
    | ⟨1, _⟩ => exact rhs_a_1 _ _)
  rw [el, er]

theorem lhs_b_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_b_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_b_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_b_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry `(p, q)` of a 5000×64 by 64×128 product: row `p` of the left factor against column `q` of the right. -/
theorem mm_b_apply (l : FVec Ideal S5000x64 .bf16) (r : FVec Ideal S64x128 .bf16) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_b_0 _ _
    | ⟨1, _⟩ => exact (lhs_b_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_b_0 _ _).trans hk
    | ⟨1, _⟩ => exact rhs_b_1 _ _)
  rw [el, er]

/-! ## The bias row and the three stretches of the first weight matrix -/

/-- A `[1, 128]` row broadcast over 5000 rows reads, at `(p, q)`, the row's entry `q`. -/
theorem bias_apply {α : Type} (v : S1x128.Idx → α) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun ax => ?_
  match ax with
  | ⟨0, _⟩ => rfl
  | ⟨1, _⟩ => rfl

/-- Rows 0..127 of the weight block: entry `(i, k)` of the stretch is entry `(i, k)` of the block. -/
theorem ld_w0 {α : Type} (X : S320x128.Idx → α) (i k : Fin 128) :
    X (r0_2.idx (ix2 i k)) = X (ix2 (⟨i.val, by omega⟩ : Fin 320) k) := by
  refine congrArg X (funext fun a => Fin.ext ?_)
  match a with
  | ⟨0, _⟩ => show 0 + 1 * i.val = i.val; omega
  | ⟨1, _⟩ => show 0 + 1 * k.val = k.val; omega

/-- Rows 128..255: entry `(i, k)` of the stretch is entry `(128 + i, k)` of the block. -/
theorem ld_w1 {α : Type} (X : S320x128.Idx → α) (i k : Fin 128) :
    X (r0_3.idx (ix2 i k)) = X (ix2 (⟨128 + i.val, by omega⟩ : Fin 320) k) := by
  refine congrArg X (funext fun a => Fin.ext ?_)
  match a with
  | ⟨0, _⟩ => show 128 + 1 * i.val = 128 + i.val; omega
  | ⟨1, _⟩ => show 0 + 1 * k.val = k.val; omega

/-- Rows 256..319: entry `(i, k)` of the stretch is entry `(256 + i, k)` of the block. -/
theorem ld_w2 {α : Type} (X : S320x128.Idx → α) (i : Fin 64) (k : Fin 128) :
    X (r0_4.idx (ix2 i k)) = X (ix2 (⟨256 + i.val, by omega⟩ : Fin 320) k) := by
  refine congrArg X (funext fun a => Fin.ext ?_)
  match a with
  | ⟨0, _⟩ => show 256 + 1 * i.val = 256 + i.val; omega
  | ⟨1, _⟩ => show 0 + 1 * k.val = k.val; omega

/-! ## The body's payload at a row and a column -/

/-- The stored value at `(p, q)`: the second layer's product of the rectified hidden row with column `q`, plus the
    second bias; a hidden unit is the three partial products of row `p` with the three weight stretches, plus the
    first bias. -/
theorem pay1_apply (v0 v3 : Vec Ideal S5000x128 .f32) (v6 : Vec Ideal S5000x64 .f32) (v8 v10 : Vec Ideal S128x128 .f32)
    (v12 : Vec Ideal S64x128 .f32) (v19 : Vec Ideal S1x128 .f32) (v26 : Vec Ideal S128x128 .f32) (v29 : Vec Ideal S1x128 .f32)
    (p : Fin 5000) (q : Fin 128) :
    k0_pay1 (F := Ideal) v0 v3 v6 v8 v10 v12 v19 v26 v29 (ix2 p q)
      = (∑ k : Fin 128, max ((((∑ i : Fin 128, v0 (ix2 p i) * v8 (ix2 i k))
            + ∑ i : Fin 128, v3 (ix2 p i) * v10 (ix2 i k))
          + ∑ i : Fin 64, v6 (ix2 p i) * v12 (ix2 i k)) + v19 (ix2 (0 : Fin 1) k)) 0 * v26 (ix2 k q))
        + v29 (ix2 (0 : Fin 1) q) := by
  unfold k0_pay1
  simp only [shapeCast_self, addf_apply, mm_a_apply, mm_b_apply, truncf_apply, maximumf_apply, broadcast_apply, bias_apply]
  have h0 : (FloatOps.ofBits (F := Ideal) .f32 0x00000000#32) = (0 : EReal) := Ideal.ofBits_zero_f32
  simp only [h0]

/-- What the message kernel's body leaves in its output block, as a function of its seven input blocks: the message
    perceptron row by row. -/
theorem out0_7_eq (x0 x1 : Vec Ideal S5000x128 .f32) (x2 : Vec Ideal S5000x64 .f32) (x3 : Vec Ideal S320x128 .f32)
    (x4 : Vec Ideal S1x128 .f32) (x5 : Vec Ideal S128x128 .f32) (x6 : Vec Ideal S1x128 .f32) :
    out0_7 (F := Ideal) x0 x1 x2 x3 x4 x5 x6
      = Spec.msgArr x0 x1 x2 x3 (fun k => x4 (ix2 (0 : Fin 1) k)) x5 (fun k => x6 (ix2 (0 : Fin 1) k)) := by
  have hz : (![0, 0] : Fin 2 → Nat) = fun _ => 0 := funext fun a => by fin_cases a <;> rfl
  unfold out0_7
  rw [View.canon_unit_zero hz]
  simp only [View.ld_unit_zero (S := S5000x128) hz, View.ld_unit_zero (S := S5000x64) hz,
    View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  rw [pay1_apply, Spec.msgArr_apply]
  unfold Spec.msgRow Spec.msgHid Spec.rowOf
  simp only [View.ld, ld_w0, ld_w1, ld_w2]

/-! ## The region's grid: which block of each array a point reads and writes

The grid has 160 points. At point `t` the three edge arrays and the output are read and written at block `t` of 5000
rows; the weights and biases are one block each, the same at every point. A block's element `(p, k)` is the array's
element `(index₀ · rows + p, index₁ · columns + k)`. -/

theorem idx0_7 : ∀ t : Fin cfg0.N, win0_7.index t (0 : Fin 2) = t.val ∧ win0_7.index t (1 : Fin 2) = 0 :=
  (by decide +kernel : ∀ t : Fin grid0.N, _)
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)

variable (V : (c : Dev nD) → (b : Ref sig .tc) → Buf (Elt Ideal) ((c : Thread nD τ).loc b))

/-! ### The input blocks at a point, read off the arrays the region finds -/

theorem blk0_apply (c : Dev nD) (t : Fin cfg0.N) (p : Fin 5000) (k : Fin 128) (hr : t.val * 5000 + p.val < 800000) :
    (iblk0 V c 0 t : Vec Ideal S5000x128 .f32) (ix2 p k) = V c main_v4 (ix2 (⟨t.val * 5000 + p.val, hr⟩ : Fin 800000) k) := by
  obtain ⟨e0, e1⟩ := idx0_0 t
  show V c main_v4 (((cfg0.win 0).blk t).view.emb (ix2 p k)) = _
  refine congrArg (V c main_v4) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk1_apply (c : Dev nD) (t : Fin cfg0.N) (p : Fin 5000) (k : Fin 128) (hr : t.val * 5000 + p.val < 800000) :
    (iblk0 V c 1 t : Vec Ideal S5000x128 .f32) (ix2 p k) = V c main_v5 (ix2 (⟨t.val * 5000 + p.val, hr⟩ : Fin 800000) k) := by
  obtain ⟨e0, e1⟩ := idx0_1 t
  show V c main_v5 (((cfg0.win 1).blk t).view.emb (ix2 p k)) = _
  refine congrArg (V c main_v5) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem blk2_apply (c : Dev nD) (t : Fin cfg0.N) (p : Fin 5000) (k : Fin 64) (hr : t.val * 5000 + p.val < 800000) :
    (iblk0 V c 2 t : Vec Ideal S5000x64 .f32) (ix2 p k) = V c main_arg2 (ix2 (⟨t.val * 5000 + p.val, hr⟩ : Fin 800000) k) := by
  obtain ⟨e0, e1⟩ := idx0_2 t
  show V c main_arg2 (((cfg0.win 2).blk t).view.emb (ix2 p k)) = _
  refine congrArg (V c main_arg2) (funext fun a => Fin.ext ?_)
  match a with
  | ⟨0, _⟩ => show win0_2.index t (0 : Fin 2) * 5000 + 1 * p.val = t.val * 5000 + p.val; omega
  | ⟨1, _⟩ => show win0_2.index t (1 : Fin 2) * 64 + 1 * k.val = k.val; omega

theorem blk3_eq (c : Dev nD) (t : Fin cfg0.N) : (iblk0 V c 3 t : Vec Ideal S320x128 .f32) = V c main_arg3 := by
  obtain ⟨e0, e1⟩ := idx0_3 t
  funext y
  obtain ⟨i, k, rfl⟩ : ∃ (i : Fin 320) (k : Fin 128), y = ix2 i k := ⟨y 0, y 1, eq_ix2 y⟩
  show V c main_arg3 (((cfg0.win 3).blk t).view.emb (ix2 i k)) = V c main_arg3 (ix2 i k)
  refine congrArg (V c main_arg3) (funext fun a => Fin.ext ?_)
  match a with
  | ⟨0, _⟩ => show win0_3.index t (0 : Fin 2) * 320 + 1 * i.val = i.val; omega
  | ⟨1, _⟩ => show win0_3.index t (1 : Fin 2) * 128 + 1 * k.val = k.val; omega

theorem blk4_eq (c : Dev nD) (t : Fin cfg0.N) : (iblk0 V c 4 t : Vec Ideal S1x128 .f32) = V c main_v6 := by
  obtain ⟨e0, e1⟩ := idx0_4 t
  funext y
  obtain ⟨i, k, rfl⟩ : ∃ (i : Fin 1) (k : Fin 128), y = ix2 i k := ⟨y 0, y 1, eq_ix2 y⟩
  show V c main_v6 (((cfg0.win 4).blk t).view.emb (ix2 i k)) = V c main_v6 (ix2 i k)
  refine congrArg (V c main_v6) (funext fun a => Fin.ext ?_)
  match a with
  | ⟨0, _⟩ => show win0_4.index t (0 : Fin 2) * 1 + 1 * i.val = i.val; omega
  | ⟨1, _⟩ => show win0_4.index t (1 : Fin 2) * 128 + 1 * k.val = k.val; omega

theorem blk5_eq (c : Dev nD) (t : Fin cfg0.N) : (iblk0 V c 5 t : Vec Ideal S128x128 .f32) = V c main_arg5 := by
  obtain ⟨e0, e1⟩ := idx0_5 t
  funext y
  obtain ⟨i, k, rfl⟩ : ∃ (i : Fin 128) (k : Fin 128), y = ix2 i k := ⟨y 0, y 1, eq_ix2 y⟩
  show V c main_arg5 (((cfg0.win 5).blk t).view.emb (ix2 i k)) = V c main_arg5 (ix2 i k)
  refine congrArg (V c main_arg5) (funext fun a => Fin.ext ?_)
  match a with
  | ⟨0, _⟩ => show win0_5.index t (0 : Fin 2) * 128 + 1 * i.val = i.val; omega
  | ⟨1, _⟩ => show win0_5.index t (1 : Fin 2) * 128 + 1 * k.val = k.val; omega

theorem blk6_eq (c : Dev nD) (t : Fin cfg0.N) : (iblk0 V c 6 t : Vec Ideal S1x128 .f32) = V c main_v7 := by
  obtain ⟨e0, e1⟩ := idx0_6 t
  funext y
  obtain ⟨i, k, rfl⟩ : ∃ (i : Fin 1) (k : Fin 128), y = ix2 i k := ⟨y 0, y 1, eq_ix2 y⟩
  show V c main_v7 (((cfg0.win 6).blk t).view.emb (ix2 i k)) = V c main_v7 (ix2 i k)
  refine congrArg (V c main_v7) (funext fun a => Fin.ext ?_)
  match a with
  | ⟨0, _⟩ => show win0_6.index t (0 : Fin 2) * 1 + 1 * i.val = i.val; omega
  | ⟨1, _⟩ => show win0_6.index t (1 : Fin 2) * 128 + 1 * k.val = k.val; omega

/-- Element `(p, q)` of the output's block at point `t` is the array's element `(t · 5000 + p, q)`. -/
theorem emb7 (t : Fin cfg0.N) (p : Fin 5000) (q : Fin 128) (hr : t.val * 5000 + p.val < 800000) :
    ((cfg0.win 7).blk t).view.emb (ix2 p q) = (ix2 (⟨t.val * 5000 + p.val, hr⟩ : Fin 800000) q : S800000x128.Idx) := by
  obtain ⟨e0, e1⟩ := idx0_7 t
  funext a; apply Fin.ext
  match a with
  | ⟨0, _⟩ => show win0_7.index t (0 : Fin 2) * 5000 + 1 * p.val = t.val * 5000 + p.val; omega
  | ⟨1, _⟩ => show win0_7.index t (1 : Fin 2) * 128 + 1 * q.val = q.val; omega

/-! ### One point's write-back -/

/-- The perceptron of blocks is the perceptron of the arrays, when row `p` of each edge block is row `r` of its array
    and the weight and bias blocks are the arrays. -/
theorem msg_blk (A B : Spec.Mat 800000 128) (E : Spec.Mat 800000 64) (W1 : Spec.Mat 320 128) (c1 : Spec.Mat 1 128)
    (W2 : Spec.Mat 128 128) (c2 : Spec.Mat 1 128)
    (x0 x1 : Spec.Mat 5000 128) (x2 : Spec.Mat 5000 64) (x3 : Spec.Mat 320 128) (x4 : Spec.Mat 1 128)
    (x5 : Spec.Mat 128 128) (x6 : Spec.Mat 1 128) (r : Fin 800000) (p : Fin 5000) (q : Fin 128)
    (h0 : ∀ k, x0 (ix2 p k) = A (ix2 r k)) (h1 : ∀ k, x1 (ix2 p k) = B (ix2 r k)) (h2 : ∀ k, x2 (ix2 p k) = E (ix2 r k))
    (h3 : x3 = W1) (h4 : x4 = c1) (h5 : x5 = W2) (h6 : x6 = c2) :
    Spec.msgArr x0 x1 x2 x3 (fun k => x4 (ix2 (0 : Fin 1) k)) x5 (fun k => x6 (ix2 (0 : Fin 1) k)) (ix2 p q)
      = Spec.msgArr A B E W1 (fun k => c1 (ix2 (0 : Fin 1) k)) W2 (fun k => c2 (ix2 (0 : Fin 1) k)) (ix2 r q) := by
  subst h3 h4 h5 h6
  rw [Spec.msgArr_apply, Spec.msgArr_apply]
  have e0 : Spec.rowOf x0 p = Spec.rowOf A r := funext h0
  have e1 : Spec.rowOf x1 p = Spec.rowOf B r := funext h1
  have e2 : Spec.rowOf x2 p = Spec.rowOf E r := funext h2
  rw [e0, e1, e2]

/-- What point `t` writes back is block `t` of the message perceptron of the arrays the region finds. -/
theorem flushed_eq (c : Dev nD) (t : Fin cfg0.N) :
    (dat0 (F := Ideal) V c).flushed 7 t = ((cfg0.win 7).blk t).view.read (Elt Ideal)
        (Spec.msgArr (V c main_v4) (V c main_v5) (V c main_arg2) (V c main_arg3) (fun k => V c main_v6 (ix2 (0 : Fin 1) k))
          (V c main_arg5) (fun k => V c main_v7 (ix2 (0 : Fin 1) k))) := by
  show (cfg0.win 7).cut (grid0.coords t) ((dat0 V c).after 7 t) = _
  rw [after0_7, out0_7_eq]
  funext y
  obtain ⟨p, q, rfl⟩ : ∃ (p : Fin 5000) (q : Fin 128), y = ix2 p q := ⟨y 0, y 1, eq_ix2 y⟩
  have hr : t.val * 5000 + p.val < 800000 := by
    have ht : t.val < 160 := lt_of_lt_of_eq t.isLt N_0
    omega
  show Spec.msgArr (iblk0 V c 0 t) (iblk0 V c 1 t) (iblk0 V c 2 t) (iblk0 V c 3 t) (fun k => iblk0 V c 4 t (ix2 (0 : Fin 1) k))
      (iblk0 V c 5 t) (fun k => iblk0 V c 6 t (ix2 (0 : Fin 1) k)) (ix2 p q)
    = (Spec.msgArr (V c main_v4) (V c main_v5) (V c main_arg2) (V c main_arg3) (fun k => V c main_v6 (ix2 (0 : Fin 1) k))
          (V c main_arg5) (fun k => V c main_v7 (ix2 (0 : Fin 1) k))) (((cfg0.win 7).blk t).view.emb (ix2 p q))
  rw [emb7 t p q hr]
  exact msg_blk _ _ _ _ _ _ _ _ _ _ _ _ _ _ _ p q (fun k => blk0_apply V c t p k hr) (fun k => blk1_apply V c t p k hr)
    (fun k => blk2_apply V c t p k hr) (blk3_eq V c t) (blk4_eq V c t) (blk5_eq V c t) (blk6_eq V c t)

/-! ### The 160 blocks cover the array -/

/-- An index of the array is in point `t`'s block iff each coordinate is in the block's range on its axis. -/
theorem mem_blk7 (t : Fin cfg0.N) (i : S800000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v8).slice (win0_7.rect t)).set ↔ _
  rw [View.set_slice_whole, Rect.mem_set_unit]
  exact Iff.rfl

/-- Row `r` lies in the block of point `r / 5000`. -/
theorem cover7 (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 160) N_0.symm⟩, rfl⟩
  obtain ⟨e0, e1⟩ := idx0_7 t
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The message array after the first region: the message perceptron, row by row, of the arrays the region finds. -/
theorem arr0 (c : Dev nD) :
    (dat0 (F := Ideal) V c).arrAt 7 cfg0.N
      = Spec.msgArr (V c main_v4) (V c main_v5) (V c main_arg2) (V c main_arg3) (fun k => V c main_v6 (ix2 (0 : Fin 1) k))
          (V c main_arg5) (fun k => V c main_v7 (ix2 (0 : Fin 1) k)) :=
  (dat0 V c).arrAt_eq_of_cover 7 _ (fun t _ => flushed_eq V c t) cover7

end Cert.KernelIdeal.Val0

end
-- ==== Proof.Region1.lean ====
/-
  The second kernel's value. Each grid point's body computes, for the 2000 nodes of its block, the update perceptron of
  a node's features and aggregated messages, adds the features, and normalises the row (mean, variance, reciprocal
  root, scale, shift: the sums along the row, their keepdims columns broadcast back); the blocks of the two node arrays
  at a point are rows t·2000 … t·2000 + 1999 of their arrays and the other blocks are the whole arrays, so what a point
  writes back is its block of ONE function of the arrays, and the 25 blocks cover the result.
-/
import proofs.«401593_j292057776274_2_alg».proof.Proof.Gen.KernelIdeal.Frame
import proofs.«401593_j292057776274_2_alg».proof.Proof.Spec
import proofs.«401593_j292057776274_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val1

open Cert.KernelIdeal Cert.KernelIdeal.Gen Idealize.ShloMosaic Idealize.ShloMosaic.TcCoe Idealize.ShloMosaic.ValueIdx Idealize.SL.Sem
open Idealize.ShloMosaic.Pipeline (Dat)

/-! ## A product of a 2000×128 block with a 128×128 matrix, read at an entry -/

theorem prodL_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem prodL_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem prodR_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem prodR_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `(p, q)` of the product accumulated into zero is the sum over the 128 inner positions of row `p` of the
    left factor against column `q` of the right one. -/
theorem prod_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact prodL_0 _ _
    | ⟨1, _⟩ => exact (prodL_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (prodR_0 _ _).trans hk
    | ⟨1, _⟩ => exact prodR_1 _ _)
  rw [el, er]

/-! ## The two stretches of the first layer's weights -/

theorem hz : (![0, 0] : Fin 2 → Nat) = fun _ => 0 := funext fun a => by fin_cases a <;> rfl

/-- The first 128 rows of the 256×128 weight block. -/
theorem ld_top (x2 : Vec Ideal S256x128 .f32) (k q : Fin 128) :
    View.ld x2 r1_1 (ix2 k q) = x2 (ix2 (⟨k.val, by omega⟩ : Fin 256) q) := by
  show x2 (r1_1.idx (ix2 k q)) = _
  refine congrArg x2 (funext fun a => Fin.ext ?_)
  match a with
  | ⟨0, _⟩ => show 0 + 1 * k.val = k.val; omega
  | ⟨1, _⟩ => show 0 + 1 * q.val = q.val; omega

/-- Its last 128 rows. -/
theorem ld_bot (x2 : Vec Ideal S256x128 .f32) (k q : Fin 128) :
    View.ld x2 r1_2 (ix2 k q) = x2 (ix2 (⟨128 + k.val, by omega⟩ : Fin 256) q) := by
  show x2 (r1_2.idx (ix2 k q)) = _
  refine congrArg x2 (funext fun a => Fin.ext ?_)
  match a with
  | ⟨0, _⟩ => show 128 + 1 * k.val = 128 + k.val; omega
  | ⟨1, _⟩ => show 0 + 1 * q.val = q.val; omega

/-! ## The body's values at an entry -/

/-- The row before normalisation: the feature plus the two-layer perceptron's output. -/
theorem pre_at (v0 v1 : Vec Ideal S2000x128 .f32) (v5 v7 : Vec Ideal S128x128 .f32) (v12 : Vec Ideal S1x128 .f32)
    (v19 : Vec Ideal S128x128 .f32) (v22 : Vec Ideal S1x128 .f32) (p : Fin 2000) (q : Fin 128) :
    k1_pay2 (F := Ideal) v0 v1 v5 v7 v12 v19 v22 (ix2 p q)
      = v0 (ix2 p q) + ((∑ k : Fin 128, max (((∑ i : Fin 128, v0 (ix2 p i) * v5 (ix2 i k))
            + ∑ i : Fin 128, v1 (ix2 p i) * v7 (ix2 i k)) + v12 (ix2 (0 : Fin 1) k)) 0 * v19 (ix2 k q))
          + v22 (ix2 (0 : Fin 1) q)) := by
  unfold k1_pay2
  simp only [addf_apply, prod_at, truncf_apply, maximumf_apply, broadcast_apply, shapeCast_self,
    broadcastTo_1b_ab_apply, Ideal.ofBits_def, Ideal.ofBits_zero_f32]

/-- With the weight block's two stretches loaded, that row is the specification's. -/
theorem pre_eq (x0 x1 : Vec Ideal S2000x128 .f32) (x2 : Vec Ideal S256x128 .f32) (x3 : Vec Ideal S1x128 .f32)
    (x4 : Vec Ideal S128x128 .f32) (x5 : Vec Ideal S1x128 .f32) (p : Fin 2000) (q : Fin 128) :
    k1_pay2 (F := Ideal) x0 x1 (View.ld x2 r1_1) (View.ld x2 r1_2) x3 x4 x5 (ix2 p q)
      = Spec.updPre (Spec.rowOf x0 p) (Spec.rowOf x1 p) x2 (fun k => x3 (ix2 (0 : Fin 1) k)) x4
          (fun k => x5 (ix2 (0 : Fin 1) k)) q := by
  rw [pre_at]
  unfold Spec.updPre Spec.updHid Spec.rowOf
  refine congrArg (x0 (ix2 p q) + ·) (congrArg (· + x5 (ix2 (0 : Fin 1) q)) (Finset.sum_congr rfl fun k _ => ?_))
  refine congrArg (fun z => max (z + x3 (ix2 (0 : Fin 1) k)) 0 * x4 (ix2 k q)) ?_
  exact congrArg₂ (· + ·) (Finset.sum_congr rfl fun i _ => by rw [ld_top]) (Finset.sum_congr rfl fun i _ => by rw [ld_bot])

/-- The row mean, kept as a column: the row's sum over the divisor. -/
theorem mean_at (v0 v1 : Vec Ideal S2000x128 .f32) (v5 v7 : Vec Ideal S128x128 .f32) (v12 : Vec Ideal S1x128 .f32)
    (v19 : Vec Ideal S128x128 .f32) (v22 : Vec Ideal S1x128 .f32) (p : Fin 2000) (u : Fin 1) :
    k1_pay3 (F := Ideal) v0 v1 v5 v7 v12 v19 v22 (ix2 p u)
      = Spec.rowMean (fun k => k1_pay2 (F := Ideal) v0 v1 v5 v7 v12 v19 v22 (ix2 p k)) Spec.c128 := by
  unfold k1_pay3 Spec.rowMean
  generalize k1_pay2 (F := Ideal) v0 v1 v5 v7 v12 v19 v22 = W
  show Ideal.div (shapeCast S2000x1 (multiReduction .add [1] S2000 W 0x00000000#32 reduces_S2000x128_S2000 (.inl rfl) rfl)
      shapeCasts_S2000_S2000x1 (ix2 p u)) Spec.c128 = _
  rw [LibColumn.shapeCast_a_a1_apply]
  exact congrArg (Ideal.div · Spec.c128) (LibColumn.sumAxis1_apply W _ _ _ _ p)

/-- The sum of squared deviations from the row mean, kept as a column. -/
theorem dev_at (v0 v1 : Vec Ideal S2000x128 .f32) (v5 v7 : Vec Ideal S128x128 .f32) (v12 : Vec Ideal S1x128 .f32)
    (v19 : Vec Ideal S128x128 .f32) (v22 : Vec Ideal S1x128 .f32) (p : Fin 2000) (u : Fin 1) :
    k1_pay4 (F := Ideal) v0 v1 v5 v7 v12 v19 v22 (ix2 p u)
      = ∑ k : Fin 128, (k1_pay2 (F := Ideal) v0 v1 v5 v7 v12 v19 v22 (ix2 p k)
            - Spec.rowMean (fun k => k1_pay2 (F := Ideal) v0 v1 v5 v7 v12 v19 v22 (ix2 p k)) Spec.c128)
          * (k1_pay2 (F := Ideal) v0 v1 v5 v7 v12 v19 v22 (ix2 p k)
            - Spec.rowMean (fun k => k1_pay2 (F := Ideal) v0 v1 v5 v7 v12 v19 v22 (ix2 p k)) Spec.c128) := by
  unfold k1_pay4
  rw [LibColumn.shapeCast_a_a1_apply]
  refine (LibColumn.sumAxis1_apply _ _ _ _ _ p).trans (Finset.sum_congr rfl fun k _ => ?_)
  rw [mulf_apply, subf_apply, LibColumn.broadcastTo_a1_ab_apply, mean_at]

/-- The normalised row from the row before normalisation and its three columns. -/
theorem norm_at (v26 : FVec Ideal S2000x128 .f32) (v30 v35 v36 : FVec Ideal S2000x1 .f32) (v45 v49 : Vec Ideal S1x128 .f32)
    (p : Fin 2000) (q : Fin 128) :
    k1_pay1 (F := Ideal) v26 v30 v35 v36 v45 v49 (ix2 p q)
      = ((v26 (ix2 p q) - v30 (ix2 p (0 : Fin 1)))
            * Ideal.rsqrt (Ideal.div (v35 (ix2 p (0 : Fin 1))) (v36 (ix2 p (0 : Fin 1))) + Spec.epsLN))
          * v45 (ix2 (0 : Fin 1) q) + v49 (ix2 (0 : Fin 1) q) := by
  unfold k1_pay1
  rw [addf_apply, mulf_apply, mulf_apply, subf_apply, broadcastTo_1b_ab_apply, broadcastTo_1b_ab_apply,
    LibColumn.broadcastTo_a1_ab_apply, LibColumn.broadcastTo_a1_ab_apply, shapeCast_self, shapeCast_self]
  rfl

/-- What the update kernel's body leaves in its output block, as a function of its eight input blocks: the update
    perceptron added to the features and normalised, row by row. -/
theorem out1_8_eq (x0 x1 : Vec Ideal S2000x128 .f32) (x2 : Vec Ideal S256x128 .f32) (x3 : Vec Ideal S1x128 .f32)
    (x4 : Vec Ideal S128x128 .f32) (x5 x6 x7 : Vec Ideal S1x128 .f32) :
    out1_8 (F := Ideal) x0 x1 x2 x3 x4 x5 x6 x7
      = Spec.updArr x0 x1 x2 (fun k => x3 (ix2 (0 : Fin 1) k)) x4 (fun k => x5 (ix2 (0 : Fin 1) k))
          (fun k => x6 (ix2 (0 : Fin 1) k)) (fun k => x7 (ix2 (0 : Fin 1) k)) := by
  unfold out1_8
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  rw [Spec.updArr_apply, norm_at, mean_at, dev_at]
  unfold Spec.lnRow Spec.rowVar
  simp only [pre_eq]
  rfl

/-! ## From the blocks to the array -/

/-- The block index maps over the 25 grid points: the two node blocks and the output block move down the rows with
    the point; the weights and the four rows stay. -/
theorem grid_index : ∀ t : Fin cfg1.N,
    win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem point_lt (t : Fin cfg1.N) : t.val < 25 := lt_of_lt_of_eq t.isLt N_1

/-- Rows of a block that are rows of an array give the same normalised rows. -/
theorem updArr_rows {n : ℕ} (X G : Spec.Mat n 128) (X' G' : Spec.Mat 2000 128) (W1 : Spec.Mat 256 128)
    (b1 : Fin 128 → EReal) (W2 : Spec.Mat 128 128) (b2 γ β : Fin 128 → EReal) (r : Fin n) (p : Fin 2000) (q : Fin 128)
    (hX : ∀ k, X' (ix2 p k) = X (ix2 r k)) (hG : ∀ k, G' (ix2 p k) = G (ix2 r k)) :
    Spec.updArr X' G' W1 b1 W2 b2 γ β (ix2 p q) = Spec.updArr X G W1 b1 W2 b2 γ β (ix2 r q) := by
  rw [Spec.updArr_apply, Spec.updArr_apply]
  have e1 : Spec.rowOf X' p = Spec.rowOf X r := funext hX
  have e2 : Spec.rowOf G' p = Spec.rowOf G r := funext hG
  rw [e1, e2]

variable (V : (c : Dev nD) → (b : Ref sig .tc) → Buf (Elt Ideal) ((c : Thread nD τ).loc b))

/-- Entry `(p, q)` of the output block at point `t` is entry `(2000 t + p, q)` of the array. -/
theorem emb_out (t : Fin cfg1.N) (p : Fin 2000) (q : Fin 128) :
    ((cfg1.win 8).blk t).view.emb (ix2 p q)
      = ix2 (⟨t.val * 2000 + p.val, by have := point_lt t; omega⟩ : Fin 50000) q := by
  funext a; apply Fin.ext
  obtain ⟨e0, e1, -⟩ := grid_index t
  match a with
  | ⟨0, _⟩ => show win1_8.index t (0 : Fin 2) * 2000 + 1 * p.val = t.val * 2000 + p.val; omega
  | ⟨1, _⟩ => show win1_8.index t (1 : Fin 2) * 128 + 1 * q.val = q.val; omega

/-- Row `p` of the features' block at point `t` is row `2000 t + p` of the features. -/
theorem blk_0 (c : Dev nD) (t : Fin cfg1.N) (p : Fin 2000) (k : Fin 128) :
    (iblk1 V c 0 t : Vec Ideal S2000x128 .f32) (ix2 p k)
      = V c main_arg0 (ix2 (⟨t.val * 2000 + p.val, by have := point_lt t; omega⟩ : Fin 50000) k) := by
  show V c main_arg0 (((cfg1.win 0).blk t).view.emb (ix2 p k)) = _
  refine congrArg (V c main_arg0) (funext fun a => Fin.ext ?_)
  obtain ⟨-, -, e0, e1, -⟩ := grid_index t
  match a with
  | ⟨0, _⟩ => show win1_0.index t (0 : Fin 2) * 2000 + 1 * p.val = t.val * 2000 + p.val; omega
  | ⟨1, _⟩ => show win1_0.index t (1 : Fin 2) * 128 + 1 * k.val = k.val; omega

/-- The same for the aggregated messages. -/
theorem blk_1 (c : Dev nD) (t : Fin cfg1.N) (p : Fin 2000) (k : Fin 128) :
    (iblk1 V c 1 t : Vec Ideal S2000x128 .f32) (ix2 p k)
      = V c main_v11 (ix2 (⟨t.val * 2000 + p.val, by have := point_lt t; omega⟩ : Fin 50000) k) := by
  show V c main_v11 (((cfg1.win 1).blk t).view.emb (ix2 p k)) = _
  refine congrArg (V c main_v11) (funext fun a => Fin.ext ?_)
  obtain ⟨-, -, -, -, e0, e1, -⟩ := grid_index t
  match a with
  | ⟨0, _⟩ => show win1_1.index t (0 : Fin 2) * 2000 + 1 * p.val = t.val * 2000 + p.val; omega
  | ⟨1, _⟩ => show win1_1.index t (1 : Fin 2) * 128 + 1 * k.val = k.val; omega

/-- Window 2's block is its whole array at every point. -/
theorem blk_2 (c : Dev nD) (t : Fin cfg1.N) : (iblk1 V c 2 t : Vec Ideal S256x128 .f32) = V c main_arg7 := by
  funext y
  show V c main_arg7 (((cfg1.win 2).blk t).view.emb y) = V c main_arg7 y
  refine congrArg (V c main_arg7) (funext fun a => Fin.ext ?_)
  obtain ⟨-, -, -, -, -, -, e20, e21, e30, e31, e40, e41, e50, e51, e60, e61, e70, e71⟩ := grid_index t
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- Window 3's block is its whole array at every point. -/
theorem blk_3 (c : Dev nD) (t : Fin cfg1.N) : (iblk1 V c 3 t : Vec Ideal S1x128 .f32) = V c main_v12 := by
  funext y
  show V c main_v12 (((cfg1.win 3).blk t).view.emb y) = V c main_v12 y
  refine congrArg (V c main_v12) (funext fun a => Fin.ext ?_)
  obtain ⟨-, -, -, -, -, -, e20, e21, e30, e31, e40, e41, e50, e51, e60, e61, e70, e71⟩ := grid_index t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block is its whole array at every point. -/
theorem blk_4 (c : Dev nD) (t : Fin cfg1.N) : (iblk1 V c 4 t : Vec Ideal S128x128 .f32) = V c main_arg9 := by
  funext y
  show V c main_arg9 (((cfg1.win 4).blk t).view.emb y) = V c main_arg9 y
  refine congrArg (V c main_arg9) (funext fun a => Fin.ext ?_)
  obtain ⟨-, -, -, -, -, -, e20, e21, e30, e31, e40, e41, e50, e51, e60, e61, e70, e71⟩ := grid_index t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block is its whole array at every point. -/
theorem blk_5 (c : Dev nD) (t : Fin cfg1.N) : (iblk1 V c 5 t : Vec Ideal S1x128 .f32) = V c main_v13 := by
  funext y
  show V c main_v13 (((cfg1.win 5).blk t).view.emb y) = V c main_v13 y
  refine congrArg (V c main_v13) (funext fun a => Fin.ext ?_)
  obtain ⟨-, -, -, -, -, -, e20, e21, e30, e31, e40, e41, e50, e51, e60, e61, e70, e71⟩ := grid_index t
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block is its whole array at every point. -/
theorem blk_6 (c : Dev nD) (t : Fin cfg1.N) : (iblk1 V c 6 t : Vec Ideal S1x128 .f32) = V c main_v14 := by
  funext y
  show V c main_v14 (((cfg1.win 6).blk t).view.emb y) = V c main_v14 y
  refine congrArg (V c main_v14) (funext fun a => Fin.ext ?_)
  obtain ⟨-, -, -, -, -, -, e20, e21, e30, e31, e40, e41, e50, e51, e60, e61, e70, e71⟩ := grid_index t
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block is its whole array at every point. -/
theorem blk_7 (c : Dev nD) (t : Fin cfg1.N) : (iblk1 V c 7 t : Vec Ideal S1x128 .f32) = V c main_v15 := by
  funext y
  show V c main_v15 (((cfg1.win 7).blk t).view.emb y) = V c main_v15 y
  refine congrArg (V c main_v15) (funext fun a => Fin.ext ?_)
  obtain ⟨-, -, -, -, -, -, e20, e21, e30, e31, e40, e41, e50, e51, e60, e61, e70, e71⟩ := grid_index t
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- What point `t` writes back is its block of the layer's result on the arrays the region finds. -/
theorem flushed_eq (c : Dev nD) (t : Fin cfg1.N) :
    (dat1 (F := Ideal) V c).flushed 8 t = ((cfg1.win 8).blk t).view.read (Elt Ideal) (Spec.updArr (V c main_arg0) (V c main_v11) (V c main_arg7) (fun k => V c main_v12 (ix2 (0 : Fin 1) k))
          (V c main_arg9) (fun k => V c main_v13 (ix2 (0 : Fin 1) k)) (fun k => V c main_v14 (ix2 (0 : Fin 1) k))
          (fun k => V c main_v15 (ix2 (0 : Fin 1) k))) := by
  show (cfg1.win 8).cut (grid1.coords t) ((dat1 V c).after 8 t) = _
  rw [after1_8, out1_8_eq]
  funext j
  obtain ⟨p, q, rfl⟩ : ∃ (p : Fin 2000) (q : Fin 128), j = ix2 p q := ⟨j 0, j 1, eq_ix2 j⟩
  show Spec.updArr (iblk1 V c 0 t) (iblk1 V c 1 t) (iblk1 V c 2 t) (fun k => iblk1 V c 3 t (ix2 (0 : Fin 1) k))
          (iblk1 V c 4 t) (fun k => iblk1 V c 5 t (ix2 (0 : Fin 1) k)) (fun k => iblk1 V c 6 t (ix2 (0 : Fin 1) k))
          (fun k => iblk1 V c 7 t (ix2 (0 : Fin 1) k)) (ix2 p q)
      = (Spec.updArr (V c main_arg0) (V c main_v11) (V c main_arg7) (fun k => V c main_v12 (ix2 (0 : Fin 1) k))
          (V c main_arg9) (fun k => V c main_v13 (ix2 (0 : Fin 1) k)) (fun k => V c main_v14 (ix2 (0 : Fin 1) k))
          (fun k => V c main_v15 (ix2 (0 : Fin 1) k))) (((cfg1.win 8).blk t).view.emb (ix2 p q))
  rw [emb_out t p q, blk_2 V c t, blk_3 V c t, blk_4 V c t, blk_5 V c t, blk_6 V c t, blk_7 V c t]
  exact updArr_rows _ _ _ _ _ _ _ _ _ _ _ p q (fun k => blk_0 V c t p k) (fun k => blk_1 V c t p k)

/-- An index of the array is in point `t`'s block when each coordinate is in the block's range on its axis. -/
theorem mem_blk (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v16).slice (win1_8.rect t)).set ↔ _
  rw [View.set_slice_whole, Rect.mem_set_unit]
  exact Iff.rfl

/-- Row `r` of the array lies in the block of point `r / 2000`. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_8 _, ?_⟩
  rw [mem_blk]
  obtain ⟨e0, e1, -⟩ := grid_index ⟨(i 0).val / 2000, by rw [hN]; omega⟩
  intro a
  match a with
  | ⟨0, _⟩ =>
    show win1_8.index ⟨(i 0).val / 2000, _⟩ (0 : Fin 2) * 2000 ≤ (i 0).val
      ∧ (i 0).val < win1_8.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, _⟩ (1 : Fin 2) * 128 ≤ (i 1).val
      ∧ (i 1).val < win1_8.index ⟨(i 0).val / 2000, _⟩ (1 : Fin 2) * 128 + 128
    rw [e1]; omega

/-- The result array after the second region: the update and normalisation, row by row, of the arrays the region finds. -/
theorem arr1 (c : Dev nD) :
    (dat1 (F := Ideal) V c).arrAt 8 cfg1.N
      = Spec.updArr (V c main_arg0) (V c main_v11) (V c main_arg7) (fun k => V c main_v12 (ix2 (0 : Fin 1) k))
          (V c main_arg9) (fun k => V c main_v13 (ix2 (0 : Fin 1) k)) (fun k => V c main_v14 (ix2 (0 : Fin 1) k))
          (fun k => V c main_v15 (ix2 (0 : Fin 1) k)) :=
  (dat1 V c).arrAt_eq_of_cover 8 _ (fun t _ => flushed_eq V c t) cover

end Cert.KernelIdeal.Val1

end
-- ==== Proof.KernelValue.lean ====
/-
  The kernel's result as one function of the launch arrays: the second region's row function of the node features
  and of the aggregated messages, the aggregated messages the scatter-add by destination of the first region's row
  function of the two gathered arrays and the edge features.
-/
import proofs.«401593_j292057776274_2_alg».proof.Proof.HostRead
import proofs.«401593_j292057776274_2_alg».proof.Proof.Region0
import proofs.«401593_j292057776274_2_alg».proof.Proof.Region1

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem

/-- The layer over the launch arrays, in the kernel program's vocabulary. -/
def kernelOut (a0 : FVec Ideal S50000x128 .f32) (a1 : IVec S2x800000 32) (a2 : FVec Ideal S800000x64 .f32)
    (a3 : FVec Ideal S320x128 .f32) (a4 : FVec Ideal S128 .f32) (a5 : FVec Ideal S128x128 .f32) (a6 : FVec Ideal S128 .f32)
    (a7 : FVec Ideal S256x128 .f32) (a8 : FVec Ideal S128 .f32) (a9 : FVec Ideal S128x128 .f32)
    (a10 a11 a12 : FVec Ideal S128 .f32) : FVec Ideal S50000x128 .f32 :=
  Spec.updArr a0
    (aggOf (dstIdx a1)
      (Spec.msgArr (gatherAt a0 (srcIdx a1)) (gatherAt a0 (dstIdx a1)) a2 a3 (fun k => a4 (ix1 k)) a5 (fun k => a6 (ix1 k))))
    a7 (fun k => a8 (ix1 k)) a9 (fun k => a10 (ix1 k)) (fun k => a11 (ix1 k)) (fun k => a12 (ix1 k))

variable (m : (ℓ : Loc nD τ sig) → Buf (Elt Ideal) ℓ) (ρ : Dev nD → PrngReg)

/-- The message array the first region leaves, over the launch arrays. -/
theorem msg_eq (c : Dev nD)
    (hidx : ∀ i, IntOp.cmpi .sge (m ((c : Thread nD τ).loc main_arg1) i) 0#32 = 1#1
      ∧ IntOp.cmpi .slt (m ((c : Thread nD τ).loc main_arg1) i) 50000#32 = 1#1) :
    (dat0 (V4 m ρ) c).arrAt 7 cfg0.N
      = Spec.msgArr (gatherAt (m ((c : Thread nD τ).loc main_arg0)) (srcIdx (m ((c : Thread nD τ).loc main_arg1))))
          (gatherAt (m ((c : Thread nD τ).loc main_arg0)) (dstIdx (m ((c : Thread nD τ).loc main_arg1))))
          (m ((c : Thread nD τ).loc main_arg2)) (m ((c : Thread nD τ).loc main_arg3))
          (fun k => m ((c : Thread nD τ).loc main_arg4) (ix1 k)) (m ((c : Thread nD τ).loc main_arg5))
          (fun k => m ((c : Thread nD τ).loc main_arg6) (ix1 k)) := by
  rw [Val0.arr0 (V4 m ρ) c]
  show Spec.msgArr (W4 m ρ c (Proc.devRef .tc main_v4)) (W4 m ρ c (Proc.devRef .tc main_v5))
      (W4 m ρ c (Proc.devRef .tc main_arg2)) (W4 m ρ c (Proc.devRef .tc main_arg3))
      (fun k => W4 m ρ c (Proc.devRef .tc main_v6) (ix2 (0 : Fin 1) k)) (W4 m ρ c (Proc.devRef .tc main_arg5))
      (fun k => W4 m ρ c (Proc.devRef .tc main_v7) (ix2 (0 : Fin 1) k)) = _
  have r6 : (fun k => W4 m ρ c (Proc.devRef .tc main_v6) (ix2 (0 : Fin 1) k))
      = fun k => m ((c : Thread nD τ).loc main_arg4) (ix1 k) := funext fun k => W4_v6_row m ρ c k
  have r7 : (fun k => W4 m ρ c (Proc.devRef .tc main_v7) (ix2 (0 : Fin 1) k))
      = fun k => m ((c : Thread nD τ).loc main_arg6) (ix1 k) := funext fun k => W4_v7_row m ρ c k
  rw [r6, r7, W4_v4 m ρ c hidx, W4_v5 m ρ c hidx, W4_arg2, W4_arg3, W4_arg5]

/-- The result array the run ends with, over the launch arrays. -/
theorem result_eq (c : Dev nD)
    (hidx : ∀ i, IntOp.cmpi .sge (m ((c : Thread nD τ).loc main_arg1) i) 0#32 = 1#1
      ∧ IntOp.cmpi .slt (m ((c : Thread nD τ).loc main_arg1) i) 50000#32 = 1#1) :
    W7 m ρ c (Proc.devRef .tc main_v16)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [W7_v16, Val1.arr1 (V6 m ρ) c]
  show Spec.updArr (W6 m ρ c (Proc.devRef .tc main_arg0)) (W6 m ρ c (Proc.devRef .tc main_v11))
      (W6 m ρ c (Proc.devRef .tc main_arg7)) (fun k => W6 m ρ c (Proc.devRef .tc main_v12) (ix2 (0 : Fin 1) k))
      (W6 m ρ c (Proc.devRef .tc main_arg9)) (fun k => W6 m ρ c (Proc.devRef .tc main_v13) (ix2 (0 : Fin 1) k))
      (fun k => W6 m ρ c (Proc.devRef .tc main_v14) (ix2 (0 : Fin 1) k))
      (fun k => W6 m ρ c (Proc.devRef .tc main_v15) (ix2 (0 : Fin 1) k)) = _
  have r12 : (fun k => W6 m ρ c (Proc.devRef .tc main_v12) (ix2 (0 : Fin 1) k))
      = fun k => m ((c : Thread nD τ).loc main_arg8) (ix1 k) := funext fun k => W6_v12_row m ρ c k
  have r13 : (fun k => W6 m ρ c (Proc.devRef .tc main_v13) (ix2 (0 : Fin 1) k))
      = fun k => m ((c : Thread nD τ).loc main_arg10) (ix1 k) := funext fun k => W6_v13_row m ρ c k
  have r14 : (fun k => W6 m ρ c (Proc.devRef .tc main_v14) (ix2 (0 : Fin 1) k))
      = fun k => m ((c : Thread nD τ).loc main_arg11) (ix1 k) := funext fun k => W6_v14_row m ρ c k
  have r15 : (fun k => W6 m ρ c (Proc.devRef .tc main_v15) (ix2 (0 : Fin 1) k))
      = fun k => m ((c : Thread nD τ).loc main_arg12) (ix1 k) := funext fun k => W6_v15_row m ρ c k
  rw [r12, r13, r14, r15, W6_arg0, W5_arg0, W4_arg0, W6_arg7, W5_arg7, W4_arg7, W6_arg9, W5_arg9, W4_arg9,
    W6_v11, W5_v3, W4_v3, W5_v8, msg_eq m ρ c hidx]
  rfl

end Cert.KernelIdeal.HostVal

end
-- ==== Proof.RefValue.lean ====
import proofs.«401593_j292057776274_2_alg».proof.Proof.Gen.ReferenceIdeal.Read
import proofs.«401593_j292057776274_2_alg».proof.Proof.Spec
import proofs.«401593_j292057776274_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Read Idealize.ShloMosaic Idealize.ShloMosaic.TcCoe Idealize.ShloMosaic.ValueIdx Idealize.SL.Sem

/-! ## Arrays joined along their columns, read stretch by stretch

Three matrices of 128, 128 and 64 columns laid side by side make one of 320 columns: column `k < 128` of the
joined row is column `k` of the first, column `128 + k` is column `k` of the second, column `256 + k` is column `k`
of the third. Likewise for two matrices of 128 columns each. -/

section Join
variable {α : Type}

theorem join3_first {n : ℕ} (A B : (⟨2, ![n, 128]⟩ : Shape).Idx → α) (E : (⟨2, ![n, 64]⟩ : Shape).Idx → α)
    (h : Shape.Concatenates [(⟨2, ![n, 128]⟩ : Shape), ⟨2, ![n, 128]⟩, ⟨2, ![n, 64]⟩] (⟨2, ![n, 320]⟩ : Shape) 1)
    (r : Fin n) (k : Fin 128) :
    concatenate (⟨2, ![n, 320]⟩ : Shape) 1 [⟨(⟨2, ![n, 128]⟩ : Shape), A⟩, ⟨(⟨2, ![n, 128]⟩ : Shape), B⟩, ⟨(⟨2, ![n, 64]⟩ : Shape), E⟩] h
      (ix2 r (⟨k.val, by omega⟩ : Fin 320)) = A (ix2 r k) :=
  concatenate_apply_piece (t := (⟨2, ![n, 320]⟩ : Shape)) (1 : Fin 2) [⟨(⟨2, ![n, 128]⟩ : Shape), A⟩, ⟨(⟨2, ![n, 128]⟩ : Shape), B⟩, ⟨(⟨2, ![n, 64]⟩ : Shape), E⟩] h _ 0 (by simp) (⟨2, ![n, 128]⟩ : Shape) A rfl rfl 0 rfl (ix2 r k)
    (fun b hb => by
      match b with
      | ⟨0, _⟩ => rfl
      | ⟨1, _⟩ => exact absurd rfl hb)
    (Nat.zero_add _)

theorem join3_second {n : ℕ} (A B : (⟨2, ![n, 128]⟩ : Shape).Idx → α) (E : (⟨2, ![n, 64]⟩ : Shape).Idx → α)
    (h : Shape.Concatenates [(⟨2, ![n, 128]⟩ : Shape), ⟨2, ![n, 128]⟩, ⟨2, ![n, 64]⟩] (⟨2, ![n, 320]⟩ : Shape) 1)
    (r : Fin n) (k : Fin 128) :
    concatenate (⟨2, ![n, 320]⟩ : Shape) 1 [⟨(⟨2, ![n, 128]⟩ : Shape), A⟩, ⟨(⟨2, ![n, 128]⟩ : Shape), B⟩, ⟨(⟨2, ![n, 64]⟩ : Shape), E⟩] h
      (ix2 r (⟨128 + k.val, by omega⟩ : Fin 320)) = B (ix2 r k) :=
  concatenate_apply_piece (t := (⟨2, ![n, 320]⟩ : Shape)) (1 : Fin 2) [⟨(⟨2, ![n, 128]⟩ : Shape), A⟩, ⟨(⟨2, ![n, 128]⟩ : Shape), B⟩, ⟨(⟨2, ![n, 64]⟩ : Shape), E⟩] h _ 1 (by simp) (⟨2, ![n, 128]⟩ : Shape) B rfl rfl 128 rfl (ix2 r k)
    (fun b hb => by
      match b with
      | ⟨0, _⟩ => rfl
      | ⟨1, _⟩ => exact absurd rfl hb)
    rfl

theorem join3_third {n : ℕ} (A B : (⟨2, ![n, 128]⟩ : Shape).Idx → α) (E : (⟨2, ![n, 64]⟩ : Shape).Idx → α)
    (h : Shape.Concatenates [(⟨2, ![n, 128]⟩ : Shape), ⟨2, ![n, 128]⟩, ⟨2, ![n, 64]⟩] (⟨2, ![n, 320]⟩ : Shape) 1)
    (r : Fin n) (k : Fin 64) :
    concatenate (⟨2, ![n, 320]⟩ : Shape) 1 [⟨(⟨2, ![n, 128]⟩ : Shape), A⟩, ⟨(⟨2, ![n, 128]⟩ : Shape), B⟩, ⟨(⟨2, ![n, 64]⟩ : Shape), E⟩] h
      (ix2 r (⟨256 + k.val, by omega⟩ : Fin 320)) = E (ix2 r k) :=
  concatenate_apply_piece (t := (⟨2, ![n, 320]⟩ : Shape)) (1 : Fin 2) [⟨(⟨2, ![n, 128]⟩ : Shape), A⟩, ⟨(⟨2, ![n, 128]⟩ : Shape), B⟩, ⟨(⟨2, ![n, 64]⟩ : Shape), E⟩] h _ 2 (by simp) (⟨2, ![n, 64]⟩ : Shape) E rfl rfl 256 rfl (ix2 r k)
    (fun b hb => by
      match b with
      | ⟨0, _⟩ => rfl
      | ⟨1, _⟩ => exact absurd rfl hb)
    rfl

theorem join2_first {n : ℕ} (A B : (⟨2, ![n, 128]⟩ : Shape).Idx → α)
    (h : Shape.Concatenates [(⟨2, ![n, 128]⟩ : Shape), ⟨2, ![n, 128]⟩] (⟨2, ![n, 256]⟩ : Shape) 1)
    (r : Fin n) (k : Fin 128) :
    concatenate (⟨2, ![n, 256]⟩ : Shape) 1 [⟨(⟨2, ![n, 128]⟩ : Shape), A⟩, ⟨(⟨2, ![n, 128]⟩ : Shape), B⟩] h
      (ix2 r (⟨k.val, by omega⟩ : Fin 256)) = A (ix2 r k) :=
  concatenate_apply_piece (t := (⟨2, ![n, 256]⟩ : Shape)) (1 : Fin 2) [⟨(⟨2, ![n, 128]⟩ : Shape), A⟩, ⟨(⟨2, ![n, 128]⟩ : Shape), B⟩] h _ 0 (by simp) (⟨2, ![n, 128]⟩ : Shape) A rfl rfl 0 rfl (ix2 r k)
    (fun b hb => by
      match b with
      | ⟨0, _⟩ => rfl
      | ⟨1, _⟩ => exact absurd rfl hb)
    (Nat.zero_add _)

theorem join2_second {n : ℕ} (A B : (⟨2, ![n, 128]⟩ : Shape).Idx → α)
    (h : Shape.Concatenates [(⟨2, ![n, 128]⟩ : Shape), ⟨2, ![n, 128]⟩] (⟨2, ![n, 256]⟩ : Shape) 1)
    (r : Fin n) (k : Fin 128) :
    concatenate (⟨2, ![n, 256]⟩ : Shape) 1 [⟨(⟨2, ![n, 128]⟩ : Shape), A⟩, ⟨(⟨2, ![n, 128]⟩ : Shape), B⟩] h
      (ix2 r (⟨128 + k.val, by omega⟩ : Fin 256)) = B (ix2 r k) :=
  concatenate_apply_piece (t := (⟨2, ![n, 256]⟩ : Shape)) (1 : Fin 2) [⟨(⟨2, ![n, 128]⟩ : Shape), A⟩, ⟨(⟨2, ![n, 128]⟩ : Shape), B⟩] h _ 1 (by simp) (⟨2, ![n, 128]⟩ : Shape) B rfl rfl 128 rfl (ix2 r k)
    (fun b hb => by
      match b with
      | ⟨0, _⟩ => rfl
      | ⟨1, _⟩ => exact absurd rfl hb)
    rfl

end Join

/-! ## The index maps of the products and of the row sums, as coordinates

Entry `(r, j)` of a product reads row `r` of the left factor and column `j` of the right one; a row sum at `r`
reads row `r`. -/

theorem lidx19 (r : Fin 800000) (j : Fin 128) (k : Fin 320) : lidx_main_v19 (ix2 r j) k = ix2 r k :=
  funext fun a => match a with | ⟨0, _⟩ => rfl | ⟨1, _⟩ => rfl
theorem ridx19 (r : Fin 800000) (j : Fin 128) (k : Fin 320) : ridx_main_v19 (ix2 r j) k = ix2 k j :=
  funext fun a => match a with | ⟨0, _⟩ => rfl | ⟨1, _⟩ => rfl
theorem lidx24 (r : Fin 800000) (j : Fin 128) (k : Fin 128) : lidx_main_v24 (ix2 r j) k = ix2 r k :=
  funext fun a => match a with | ⟨0, _⟩ => rfl | ⟨1, _⟩ => rfl
theorem ridx24 (r : Fin 800000) (j : Fin 128) (k : Fin 128) : ridx_main_v24 (ix2 r j) k = ix2 k j :=
  funext fun a => match a with | ⟨0, _⟩ => rfl | ⟨1, _⟩ => rfl
theorem lidx32 (r : Fin 50000) (j : Fin 128) (k : Fin 256) : lidx_main_v32 (ix2 r j) k = ix2 r k :=
  funext fun a => match a with | ⟨0, _⟩ => rfl | ⟨1, _⟩ => rfl
theorem ridx32 (r : Fin 50000) (j : Fin 128) (k : Fin 256) : ridx_main_v32 (ix2 r j) k = ix2 k j :=
  funext fun a => match a with | ⟨0, _⟩ => rfl | ⟨1, _⟩ => rfl
theorem lidx37 (r : Fin 50000) (j : Fin 128) (k : Fin 128) : lidx_main_v37 (ix2 r j) k = ix2 r k :=
  funext fun a => match a with | ⟨0, _⟩ => rfl | ⟨1, _⟩ => rfl
theorem ridx37 (r : Fin 50000) (j : Fin 128) (k : Fin 128) : ridx_main_v37 (ix2 r j) k = ix2 k j :=
  funext fun a => match a with | ⟨0, _⟩ => rfl | ⟨1, _⟩ => rfl
theorem idx42 (r : Fin 50000) (k : Fin 128) : idx_main_v42 (ix1 r) k = ix2 r k :=
  funext fun a => match a with | ⟨0, _⟩ => rfl | ⟨1, _⟩ => rfl
theorem idx49 (r : Fin 50000) (k : Fin 128) : idx_main_v49 (ix1 r) k = ix2 r k :=
  funext fun a => match a with | ⟨0, _⟩ => rfl | ⟨1, _⟩ => rfl
/-- A column entry `(r, 0)` names row `r` of the vector it was made from. -/
theorem idx43 (r : Fin 50000) (u : Fin 1) : idx_main_v43 (ix2 r u) = ix1 r :=
  funext fun a => match a with | ⟨0, _⟩ => rfl
theorem idx50 (r : Fin 50000) (u : Fin 1) : idx_main_v50 (ix2 r u) = ix1 r :=
  funext fun a => match a with | ⟨0, _⟩ => rfl
/-- A column spread over the row reads, at `(r, j)`, its entry `(r, 0)`. -/
theorem idx46 (r : Fin 50000) (j : Fin 128) : idx_main_v46 (ix2 r j) = ix2 r (0 : Fin 1) :=
  funext fun a => match a with | ⟨0, _⟩ => rfl | ⟨1, _⟩ => rfl
theorem idx53 (r : Fin 50000) (j : Fin 128) : idx_main_v53 (ix2 r j) = ix2 r (0 : Fin 1) :=
  funext fun a => match a with | ⟨0, _⟩ => rfl | ⟨1, _⟩ => rfl
theorem idx58 (r : Fin 50000) (j : Fin 128) : idx_main_v58 (ix2 r j) = ix2 r (0 : Fin 1) :=
  funext fun a => match a with | ⟨0, _⟩ => rfl | ⟨1, _⟩ => rfl

/-! ## The bias, scale and shift vectors spread over the rows

A vector of 128 entries made a `1 × 128` row and repeated down the rows reads, at `(r, j)`, its entry `j`. -/

theorem v21_read (x4 : (⟨S128, .f32⟩ : BufTy).Contents (Elt Ideal)) (r : Fin 800000) (j : Fin 128) :
    val_main_v21 (F := Ideal) x4 (ix2 r j) = x4 (ix1 j) := by
  rw [val_main_v21_apply, val_main_v20_apply]
  exact congrArg x4 (funext fun a => match a with | ⟨0, _⟩ => rfl)

theorem v26_read (x6 : (⟨S128, .f32⟩ : BufTy).Contents (Elt Ideal)) (r : Fin 800000) (j : Fin 128) :
    val_main_v26 (F := Ideal) x6 (ix2 r j) = x6 (ix1 j) := by
  rw [val_main_v26_apply, val_main_v25_apply]
  exact congrArg x6 (funext fun a => match a with | ⟨0, _⟩ => rfl)

theorem v34_read (x8 : (⟨S128, .f32⟩ : BufTy).Contents (Elt Ideal)) (r : Fin 50000) (j : Fin 128) :
    val_main_v34 (F := Ideal) x8 (ix2 r j) = x8 (ix1 j) := by
  rw [val_main_v34_apply, val_main_v33_apply]
  exact congrArg x8 (funext fun a => match a with | ⟨0, _⟩ => rfl)

theorem v39_read (x10 : (⟨S128, .f32⟩ : BufTy).Contents (Elt Ideal)) (r : Fin 50000) (j : Fin 128) :
    val_main_v39 (F := Ideal) x10 (ix2 r j) = x10 (ix1 j) := by
  rw [val_main_v39_apply, val_main_v38_apply]
  exact congrArg x10 (funext fun a => match a with | ⟨0, _⟩ => rfl)

theorem v61_read (x11 : (⟨S128, .f32⟩ : BufTy).Contents (Elt Ideal)) (r : Fin 50000) (j : Fin 128) :
    val_main_v61 (F := Ideal) x11 (ix2 r j) = x11 (ix1 j) := by
  rw [val_main_v61_apply, val_main_v60_apply]
  exact congrArg x11 (funext fun a => match a with | ⟨0, _⟩ => rfl)

theorem v64_read (x12 : (⟨S128, .f32⟩ : BufTy).Contents (Elt Ideal)) (r : Fin 50000) (j : Fin 128) :
    val_main_v64 (F := Ideal) x12 (ix2 r j) = x12 (ix1 j) := by
  rw [val_main_v64_apply, val_main_v63_apply]
  exact congrArg x12 (funext fun a => match a with | ⟨0, _⟩ => rfl)

/-! ## The specification's row functions, unfolded one step -/

/-- Entry `k` of row `r` of a matrix is its entry `(r, k)`. -/
theorem rowOf_apply {a b : ℕ} (X : Spec.Mat a b) (r : Fin a) (k : Fin b) : Spec.rowOf X r k = X (ix2 r k) := rfl

theorem lnRow_apply (v γ β : Fin 128 → EReal) (c eps : EReal) (j : Fin 128) :
    Spec.lnRow v γ β c eps j = ((v j - Spec.rowMean v c) * Ideal.rsqrt (Spec.rowVar v c + eps)) * γ j + β j := rfl

theorem c128_def : Spec.c128 = Ideal.ofBits .f32 0x43000000#32 := rfl

theorem epsLN_def : Spec.epsLN = Ideal.ofBits .f32 0x3727C5AC#32 := rfl

/-! ## The message perceptron -/

section Msg
variable (x0 : (⟨S50000x128, .f32⟩ : BufTy).Contents (Elt Ideal)) (x1 : (⟨S2x800000, .i32⟩ : BufTy).Contents (Elt Ideal)) (x2 : (⟨S800000x64, .f32⟩ : BufTy).Contents (Elt Ideal))
  (x3 : (⟨S320x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S256x128, .f32⟩ : BufTy).Contents (Elt Ideal)) (x8 : (⟨S128, .f32⟩ : BufTy).Contents (Elt Ideal)) (x9 : (⟨S128x128, .f32⟩ : BufTy).Contents (Elt Ideal)) (x10 x11 x12 : (⟨S128, .f32⟩ : BufTy).Contents (Elt Ideal))

/-- The joined input row of an edge: its first 128 entries are the first gathered row. -/
theorem v18_first (r : Fin 800000) (k : Fin 128) :
    val_main_v18 (F := Ideal) x0 x1 x2 (ix2 r (⟨k.val, by omega⟩ : Fin 320)) = val_main_v10 (F := Ideal) x0 x1 (ix2 r k) := by
  unfold val_main_v18
  exact join3_first _ _ _ _ r k

/-- Its entries 128..255 are the second gathered row. -/
theorem v18_second (r : Fin 800000) (k : Fin 128) :
    val_main_v18 (F := Ideal) x0 x1 x2 (ix2 r (⟨128 + k.val, by omega⟩ : Fin 320)) = val_main_v17 (F := Ideal) x0 x1 (ix2 r k) := by
  unfold val_main_v18
  exact join3_second _ _ _ _ r k

/-- Its entries 256..319 are the edge's own features. -/
theorem v18_third (r : Fin 800000) (k : Fin 64) :
    val_main_v18 (F := Ideal) x0 x1 x2 (ix2 r (⟨256 + k.val, by omega⟩ : Fin 320)) = x2 (ix2 r k) := by
  unfold val_main_v18
  exact join3_third _ _ _ _ r k

/-- The first layer before its rectifier: the one sum over 320 inputs is the three partial sums, plus the bias. -/
theorem v22_read (r : Fin 800000) (k : Fin 128) :
    val_main_v22 (F := Ideal) x0 x1 x2 x3 x4 (ix2 r k)
      = Spec.msgHid (Spec.rowOf (val_main_v10 (F := Ideal) x0 x1) r) (Spec.rowOf (val_main_v17 (F := Ideal) x0 x1) r)
          (Spec.rowOf x2 r) x3 (fun k => x4 (ix1 k)) k := by
  rw [val_main_v22_apply, val_main_v19_apply, v21_read, Spec.sum_fin320, Ideal.addf_def]
  unfold Spec.msgHid Spec.rowOf
  refine congrArg₂ (· + ·) (congrArg₂ (· + ·) (congrArg₂ (· + ·) ?_ ?_) ?_) rfl
  · refine Finset.sum_congr rfl fun i _ => ?_
    rw [lidx19, ridx19, v18_first]
  · refine Finset.sum_congr rfl fun i _ => ?_
    rw [lidx19, ridx19, v18_second]
  · refine Finset.sum_congr rfl fun i _ => ?_
    rw [lidx19, ridx19, v18_third]

/-- The rectified first layer: the maximum with zero. -/
theorem v23_read (r : Fin 800000) (k : Fin 128) :
    val_main_v23 (F := Ideal) x0 x1 x2 x3 x4 (ix2 r k)
      = max (Spec.msgHid (Spec.rowOf (val_main_v10 (F := Ideal) x0 x1) r) (Spec.rowOf (val_main_v17 (F := Ideal) x0 x1) r)
          (Spec.rowOf x2 r) x3 (fun k => x4 (ix1 k)) k) 0 := by
  rw [val_main_v23_apply, val_main_call0_v0_apply, val_main_call0_cst_apply, v22_read, Ideal.maximumf_def,
    Ideal.ofBits_def, Ideal.ofBits_zero_f32]

end Msg

/-- The reference's message array is the message perceptron, row by row, of its two gathered arrays and the edge features. -/
theorem msg_eq (x0 : (⟨S50000x128, .f32⟩ : BufTy).Contents (Elt Ideal)) (x1 : (⟨S2x800000, .i32⟩ : BufTy).Contents (Elt Ideal)) (x2 : (⟨S800000x64, .f32⟩ : BufTy).Contents (Elt Ideal))
    (x3 : (⟨S320x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v27 (F := Ideal) x0 x1 x2 x3 x4 x5 x6
      = Spec.msgArr (val_main_v10 (F := Ideal) x0 x1) (val_main_v17 (F := Ideal) x0 x1) x2 x3 (fun k => x4 (ix1 k)) x5 (fun k => x6 (ix1 k)) := by
  funext i
  obtain ⟨r, j, rfl⟩ : ∃ (r : Fin 800000) (j : Fin 128), i = ix2 r j := ⟨i 0, i 1, eq_ix2 i⟩
  rw [Spec.msgArr_apply, val_main_v27_apply, val_main_v24_apply, v26_read, Ideal.addf_def]
  unfold Spec.msgRow
  refine congrArg₂ (· + ·) (Finset.sum_congr rfl fun k _ => ?_) rfl
  rw [lidx24, ridx24, v23_read]

/-! ## The update perceptron and the row normalisation -/

section Upd
variable (x0 : (⟨S50000x128, .f32⟩ : BufTy).Contents (Elt Ideal)) (x1 : (⟨S2x800000, .i32⟩ : BufTy).Contents (Elt Ideal)) (x2 : (⟨S800000x64, .f32⟩ : BufTy).Contents (Elt Ideal))
  (x3 : (⟨S320x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S256x128, .f32⟩ : BufTy).Contents (Elt Ideal)) (x8 : (⟨S128, .f32⟩ : BufTy).Contents (Elt Ideal)) (x9 : (⟨S128x128, .f32⟩ : BufTy).Contents (Elt Ideal)) (x10 x11 x12 : (⟨S128, .f32⟩ : BufTy).Contents (Elt Ideal))

/-- The joined input row of a node: its first 128 entries are the node's features. -/
theorem v31_first (r : Fin 50000) (k : Fin 128) :
    val_main_v31 (F := Ideal) x0 x1 x2 x3 x4 x5 x6 (ix2 r (⟨k.val, by omega⟩ : Fin 256)) = x0 (ix2 r k) := by
  unfold val_main_v31
  exact join2_first _ _ _ r k

/-- Its entries 128..255 are the node's aggregated messages. -/
theorem v31_second (r : Fin 50000) (k : Fin 128) :
    val_main_v31 (F := Ideal) x0 x1 x2 x3 x4 x5 x6 (ix2 r (⟨128 + k.val, by omega⟩ : Fin 256))
      = val_main_v30 (F := Ideal) x0 x1 x2 x3 x4 x5 x6 (ix2 r k) := by
  unfold val_main_v31
  exact join2_second _ _ _ r k

/-- The first layer before its rectifier: the one sum over 256 inputs is the two partial sums, plus the bias. -/
theorem v35_read (r : Fin 50000) (k : Fin 128) :
    val_main_v35 (F := Ideal) x0 x1 x2 x3 x4 x5 x6 x7 x8 (ix2 r k) = Spec.updHid (Spec.rowOf x0 r) (Spec.rowOf (val_main_v30 (F := Ideal) x0 x1 x2 x3 x4 x5 x6) r) x7 (fun k => x8 (ix1 k)) k := by
  rw [val_main_v35_apply, val_main_v32_apply, v34_read, Spec.sum_fin256, Ideal.addf_def]
  refine congrArg₂ (· + ·) (congrArg₂ (· + ·) ?_ ?_) rfl
  · refine Finset.sum_congr rfl fun i _ => ?_
    rw [lidx32, ridx32, v31_first, rowOf_apply]
  · refine Finset.sum_congr rfl fun i _ => ?_
    rw [lidx32, ridx32, v31_second, rowOf_apply]

/-- The rectified first layer: the maximum with zero. -/
theorem v36_read (r : Fin 50000) (k : Fin 128) :
    val_main_v36 (F := Ideal) x0 x1 x2 x3 x4 x5 x6 x7 x8 (ix2 r k) = max (Spec.updHid (Spec.rowOf x0 r) (Spec.rowOf (val_main_v30 (F := Ideal) x0 x1 x2 x3 x4 x5 x6) r) x7 (fun k => x8 (ix1 k)) k) 0 := by
  rw [val_main_v36_apply, val_main_call1_v0_apply, val_main_call1_cst_apply, v35_read, Ideal.maximumf_def,
    Ideal.ofBits_def, Ideal.ofBits_zero_f32]

/-- A node's row before normalisation: its feature plus the perceptron's output. -/
theorem v41_read (r : Fin 50000) (j : Fin 128) :
    val_main_v41 (F := Ideal) x0 x1 x2 x3 x4 x5 x6 x7 x8 x9 x10 (ix2 r j) = Spec.updPre (Spec.rowOf x0 r) (Spec.rowOf (val_main_v30 (F := Ideal) x0 x1 x2 x3 x4 x5 x6) r) x7 (fun k => x8 (ix1 k)) x9 (fun k => x10 (ix1 k)) j := by
  rw [val_main_v41_apply, val_main_v40_apply, val_main_v37_apply, v39_read, Ideal.addf_def, Ideal.addf_def]
  refine congrArg₂ (· + ·) rfl (congrArg₂ (· + ·) (Finset.sum_congr rfl fun k _ => ?_) rfl)
  rw [lidx37, ridx37, v36_read]

/-- The row's mean, kept as a column: the row sum (started from zero) over the constant 128. -/
theorem v45_read (r : Fin 50000) (u : Fin 1) :
    val_main_v45 (F := Ideal) x0 x1 x2 x3 x4 x5 x6 x7 x8 x9 x10 (ix2 r u) = Spec.rowMean (Spec.updPre (Spec.rowOf x0 r) (Spec.rowOf (val_main_v30 (F := Ideal) x0 x1 x2 x3 x4 x5 x6) r) x7 (fun k => x8 (ix1 k)) x9 (fun k => x10 (ix1 k))) Spec.c128 := by
  rw [val_main_v45_apply, val_main_v43_apply, val_main_v44_apply, val_main_cst_4_apply, Ideal.hostDivf_def,
    Ideal.ofBits_def, idx43, val_main_v42_apply, val_main_cst_3_apply, Ideal.ofBits_def, Ideal.ofBits_zero_f32, zero_add,
    c128_def]
  refine congrArg₂ Ideal.div (Finset.sum_congr rfl fun k _ => ?_) rfl
  rw [idx42, v41_read]

/-- The deviation from the mean (the mean spread back over the row). -/
theorem v47_read (r : Fin 50000) (j : Fin 128) :
    val_main_v47 (F := Ideal) x0 x1 x2 x3 x4 x5 x6 x7 x8 x9 x10 (ix2 r j)
      = Spec.updPre (Spec.rowOf x0 r) (Spec.rowOf (val_main_v30 (F := Ideal) x0 x1 x2 x3 x4 x5 x6) r) x7 (fun k => x8 (ix1 k)) x9 (fun k => x10 (ix1 k)) j - Spec.rowMean (Spec.updPre (Spec.rowOf x0 r) (Spec.rowOf (val_main_v30 (F := Ideal) x0 x1 x2 x3 x4 x5 x6) r) x7 (fun k => x8 (ix1 k)) x9 (fun k => x10 (ix1 k))) Spec.c128 := by
  rw [val_main_v47_apply, val_main_v46_apply, idx46, v45_read, v41_read, Ideal.subf_def]

/-- The same deviation, computed a second time for the last line. -/
theorem v54_read (r : Fin 50000) (j : Fin 128) :
    val_main_v54 (F := Ideal) x0 x1 x2 x3 x4 x5 x6 x7 x8 x9 x10 (ix2 r j)
      = Spec.updPre (Spec.rowOf x0 r) (Spec.rowOf (val_main_v30 (F := Ideal) x0 x1 x2 x3 x4 x5 x6) r) x7 (fun k => x8 (ix1 k)) x9 (fun k => x10 (ix1 k)) j - Spec.rowMean (Spec.updPre (Spec.rowOf x0 r) (Spec.rowOf (val_main_v30 (F := Ideal) x0 x1 x2 x3 x4 x5 x6) r) x7 (fun k => x8 (ix1 k)) x9 (fun k => x10 (ix1 k))) Spec.c128 := by
  rw [val_main_v54_apply, val_main_v53_apply, idx53, v45_read, v41_read, Ideal.subf_def]

/-- The row's variance, kept as a column: the sum of the squared deviations over the constant 128. -/
theorem v52_read (r : Fin 50000) (u : Fin 1) :
    val_main_v52 (F := Ideal) x0 x1 x2 x3 x4 x5 x6 x7 x8 x9 x10 (ix2 r u) = Spec.rowVar (Spec.updPre (Spec.rowOf x0 r) (Spec.rowOf (val_main_v30 (F := Ideal) x0 x1 x2 x3 x4 x5 x6) r) x7 (fun k => x8 (ix1 k)) x9 (fun k => x10 (ix1 k))) Spec.c128 := by
  rw [val_main_v52_apply, val_main_v50_apply, val_main_v51_apply, val_main_cst_6_apply, Ideal.hostDivf_def,
    Ideal.ofBits_def, idx50, val_main_v49_apply, val_main_cst_5_apply, Ideal.ofBits_def, Ideal.ofBits_zero_f32, zero_add]
  refine congrArg₂ Ideal.div (Finset.sum_congr rfl fun k _ => ?_) c128_def.symm
  rw [idx49, val_main_v48_apply, v47_read, Ideal.mulf_def]

/-- The reciprocal root of the variance plus the epsilon, spread back over the row. -/
theorem v58_read (r : Fin 50000) (j : Fin 128) :
    val_main_v58 (F := Ideal) x0 x1 x2 x3 x4 x5 x6 x7 x8 x9 x10 (ix2 r j)
      = Ideal.rsqrt (Spec.rowVar (Spec.updPre (Spec.rowOf x0 r) (Spec.rowOf (val_main_v30 (F := Ideal) x0 x1 x2 x3 x4 x5 x6) r) x7 (fun k => x8 (ix1 k)) x9 (fun k => x10 (ix1 k))) Spec.c128 + Spec.epsLN) := by
  rw [val_main_v58_apply, idx58, val_main_v57_apply, val_main_v56_apply, v52_read, val_main_v55_apply,
    val_main_cst_7_apply, Ideal.hostUnary_rsqrt_def, Ideal.addf_def, Ideal.ofBits_def, epsLN_def]

end Upd

/-- The reference's result is the update and normalisation, row by row, of the features and its aggregated messages. -/
theorem out_eq (x0 : (⟨S50000x128, .f32⟩ : BufTy).Contents (Elt Ideal)) (x1 : (⟨S2x800000, .i32⟩ : BufTy).Contents (Elt Ideal)) (x2 : (⟨S800000x64, .f32⟩ : BufTy).Contents (Elt Ideal))
    (x3 : (⟨S320x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S256x128, .f32⟩ : BufTy).Contents (Elt Ideal)) (x8 : (⟨S128, .f32⟩ : BufTy).Contents (Elt Ideal)) (x9 : (⟨S128x128, .f32⟩ : BufTy).Contents (Elt Ideal)) (x10 x11 x12 : (⟨S128, .f32⟩ : BufTy).Contents (Elt Ideal)) :
    val_main_v65 (F := Ideal) x0 x1 x2 x3 x4 x5 x6 x7 x8 x9 x10 x11 x12
      = Spec.updArr x0 (val_main_v30 (F := Ideal) x0 x1 x2 x3 x4 x5 x6) x7 (fun k => x8 (ix1 k)) x9 (fun k => x10 (ix1 k))
          (fun k => x11 (ix1 k)) (fun k => x12 (ix1 k)) := by
  funext i
  obtain ⟨r, j, rfl⟩ : ∃ (r : Fin 50000) (j : Fin 128), i = ix2 r j := ⟨i 0, i 1, eq_ix2 i⟩
  rw [Spec.updArr_apply, lnRow_apply, val_main_v65_apply, val_main_v62_apply, val_main_v59_apply, v54_read, v58_read,
    v61_read, v64_read, Ideal.addf_def, Ideal.mulf_def, Ideal.mulf_def]

end Cert.ReferenceIdeal.RefValue

end
-- ==== Proof.Bridge.lean ====
/-
  The two programs meet: over the same launch arrays, the reference's result term is the kernel's function. Both
  are the second row function of the node features and the aggregated messages; both aggregate by the same
  scatter-add over the destinations, of the first row function of the same two gathers and the edge features.
-/
import proofs.«401593_j292057776274_2_alg».proof.Proof.KernelValue
import proofs.«401593_j292057776274_2_alg».proof.Proof.RefValue

set_option maxRecDepth 16384

noncomputable section

namespace Cert.Bridge

open Idealize.ShloMosaic Idealize.ShloMosaic.ValueIdx Idealize.SL.Sem
open Cert.KernelIdeal.HostVal Cert.ReferenceIdeal.Read

attribute [local irreducible] Host.gather in
/-- The reference's two gathers are the kernel program's, term for term. -/
theorem gather_src_eq (x0 : (⟨Cert.ReferenceIdeal.S50000x128, .f32⟩ : BufTy).Contents (Elt Ideal)) (x1 : (⟨Cert.ReferenceIdeal.S2x800000, .i32⟩ : BufTy).Contents (Elt Ideal)) :
    val_main_v10 (F := Ideal) x0 x1 = gatherAt x0 (srcIdx x1) := rfl

attribute [local irreducible] Host.gather in
theorem gather_dst_eq (x0 : (⟨Cert.ReferenceIdeal.S50000x128, .f32⟩ : BufTy).Contents (Elt Ideal)) (x1 : (⟨Cert.ReferenceIdeal.S2x800000, .i32⟩ : BufTy).Contents (Elt Ideal)) :
    val_main_v17 (F := Ideal) x0 x1 = gatherAt x0 (dstIdx x1) := rfl

attribute [local irreducible] Host.scatterAdd in
/-- So is its scatter-add over the destinations, from the zero array. -/
theorem scatter_eq (x1 : (⟨Cert.ReferenceIdeal.S2x800000, .i32⟩ : BufTy).Contents (Elt Ideal)) (M : (⟨Cert.ReferenceIdeal.S800000x128, .f32⟩ : BufTy).Contents (Elt Ideal)) :
    Host.scatterAdd Cert.ReferenceIdeal.scatter_S50000x128_S800000x1_S800000x128_1_0_0_1 (val_main_v28 (F := Ideal)) (val_main_v29 (F := Ideal) x1) M
      = aggOf (dstIdx x1) M := rfl

theorem ref_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000x64, .f32⟩ : BufTy).Contents (Elt Ideal))
    (x3 : (⟨Cert.ReferenceIdeal.S320x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x128, .f32⟩ : BufTy).Contents (Elt Ideal)) (x10 x11 x12 : (⟨Cert.ReferenceIdeal.S128, .f32⟩ : BufTy).Contents (Elt Ideal)) :
    val_main_v65 (F := Ideal) x0 x1 x2 x3 x4 x5 x6 x7 x8 x9 x10 x11 x12
      = kernelOut x0 x1 x2 x3 x4 x5 x6 x7 x8 x9 x10 x11 x12 := by
  rw [Cert.ReferenceIdeal.RefValue.out_eq]
  have h30 : val_main_v30 (F := Ideal) x0 x1 x2 x3 x4 x5 x6
      = aggOf (dstIdx x1) (Spec.msgArr (gatherAt x0 (srcIdx x1)) (gatherAt x0 (dstIdx x1)) x2 x3 (fun k => x4 (ix1 k)) x5 (fun k => x6 (ix1 k))) := by
    unfold val_main_v30
    rw [Cert.ReferenceIdeal.RefValue.msg_eq, scatter_eq, gather_src_eq, gather_dst_eq]
  rw [h30]
  rfl

end Cert.Bridge

end
-- ==== Proof.lean ====
/-
  The layer — gather the node features at an edge's two ends, a two-layer perceptron of those and the edge's features,
  messages summed at their destinations, a second perceptron of a node's features and its sum, a residual and a row
  normalisation — as a Pallas program of two kernels against its jnp reference, over the extended reals.

  Equal under the precondition that the floats are finite and every edge index lies in [0, 50000): outside that range
  the reference's row gather clamps the index while the kernel program's fills the row, so the two differ there; inside
  it the fill is never selected and both gathers are the same term. Each kernel computes its rows independently, block
  by block, and what it leaves is one row function of the arrays it finds; the reference computes the same row
  functions with the first layer's sum over the concatenated input where the kernels add partial sums — equal in any
  commutative monoid. The scatter-add between the two kernels is the same operation of the same operands on both sides
  and is never opened. The precondition's finiteness conjuncts are not used.

  The frames of the two kernel programs are the generated ones; the reference's is its generated run with the result
  dropped; the idealization rewrote nothing, so `preserves` is trivial.
-/
import proofs.«401593_j292057776274_2_alg».proof.Defs
import proofs.«401593_j292057776274_2_alg».proof.Proof.Gen.Kernel
import proofs.«401593_j292057776274_2_alg».proof.Proof.Gen.Kernel.Skeleton
import proofs.«401593_j292057776274_2_alg».proof.Proof.Gen.Kernel.Launch
import proofs.«401593_j292057776274_2_alg».proof.Proof.Gen.Kernel.Points
import proofs.«401593_j292057776274_2_alg».proof.Proof.Gen.Kernel.Frame
import proofs.«401593_j292057776274_2_alg».proof.Proof.Gen.KernelIdeal
import proofs.«401593_j292057776274_2_alg».proof.Proof.Gen.KernelIdeal.Skeleton
import proofs.«401593_j292057776274_2_alg».proof.Proof.Gen.KernelIdeal.Launch
import proofs.«401593_j292057776274_2_alg».proof.Proof.Gen.KernelIdeal.Points
import proofs.«401593_j292057776274_2_alg».proof.Proof.Gen.KernelIdeal.Frame
import proofs.«401593_j292057776274_2_alg».proof.Proof.Gen.ReferenceIdeal
import proofs.«401593_j292057776274_2_alg».proof.Proof.Gen.ReferenceIdeal.Run
import proofs.«401593_j292057776274_2_alg».proof.Proof.Gen.ReferenceIdeal.Read
import proofs.«401593_j292057776274_2_alg».proof.Proof.Gen.Pre_finite_inputs
import proofs.«401593_j292057776274_2_alg».proof.Proof.RunNamed
import proofs.«401593_j292057776274_2_alg».proof.Proof.PreIdx
import proofs.«401593_j292057776274_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's function of the launch arrays: the kernel program by its run with the result
    named and the regions read back, the reference by its generated run read one operation at a time. -/
theorem algebraic : Cert.algebraic_KernelIdeal_ReferenceIdeal := by
  intro m ρ m' ρ' hpre hagree
  have hidx : ∀ (c : Dev Cert.KernelIdeal.nD) i,
      IntOp.cmpi .sge ((m ((c.tc : Thread Cert.KernelIdeal.nD Cert.KernelIdeal.τ).loc Cert.KernelIdeal.main_arg1)) i) 0#32 = 1#1 ∧ IntOp.cmpi .slt ((m ((c.tc : Thread Cert.KernelIdeal.nD Cert.KernelIdeal.τ).loc Cert.KernelIdeal.main_arg1)) i) 50000#32 = 1#1 :=
    fun c i => Cert.KernelIdeal.HostVal.idx_in_range _ _ _ _ _ _ _ _ _ _ _ _ _ (hpre c) i
  refine ⟨fun c => Cert.KernelIdeal.HostVal.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.HostVal.result_eq m ρ c (hidx c)), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12⟩ := hagree c
    rw [Cert.ReferenceIdeal.Read.val_main_v65_eq, g0, g1, g2, g3, g4, g5, g6, g7, g8, g9, g10, g11, g12]
    exact Cert.Bridge.ref_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
